-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x128x16 : Shape := ⟨4, ![128, 128, 128, 16]⟩
abbrev S128x128x128x3 : Shape := ⟨4, ![128, 128, 128, 3]⟩
abbrev S16x3 : Shape := ⟨2, ![16, 3]⟩
abbrev S_ : Shape := ⟨0, ![]⟩

class Facts : Prop where
  bcast_S_S128x128x128x16 : S_.BroadcastsInDim S128x128x128x16 (![] : Fin 0 → Fin S128x128x128x16.rank)
  reducesTo_S128x128x128x16_S_d0_1_2_3 : S128x128x128x16.ReducesTo [0, 1, 2, 3] S_
  h_S_ : 0 < S_.numel
  bcast_S_S128x128x128x3 : S_.BroadcastsInDim S128x128x128x3 (![] : Fin 0 → Fin S128x128x128x3.rank)
  reducesTo_S128x128x128x3_S_d0_1_2_3 : S128x128x128x3.ReducesTo [0, 1, 2, 3] S_
  bcast_S_S16x3 : S_.BroadcastsInDim S16x3 (![] : Fin 0 → Fin S16x3.rank)
  reducesTo_S16x3_S_d0_1 : S16x3.ReducesTo [0, 1] S_

variable [Facts]

def fn_part1 {F : FTy → Type} [FloatOps F] (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  main_v18

def fn {F : FTy → Type} [FloatOps F] (main_arg0 : FVec F S128x128x128x16 .f32) (main_arg1 : FVec F S128x128x128x3 .f32) (main_arg2 : FVec F S16x3 .f32) (main_arg3 : FVec F S16x3 .f32) : IVec S_ 1 :=
  let main_v0 : FVec F S128x128x128x16 .f32 := Host.absf main_arg0
  let main_cst : FVec F S_ .f32 := constant S_ .f32 0x7F800000#32
  let main_v1 : FVec F S128x128x128x16 .f32 := broadcastInDim S128x128x128x16 ![] bcast_S_S128x128x128x16 main_cst
  let main_v2 : IVec S128x128x128x16 1 := cmpf .olt main_v0 main_v1
  let main_c : IVec S_ 1 := constantI S_ 1 1#1
  let main_v3 : IVec S_ 1 := (fun x v => Host.reduce IntOp.andi x v reducesTo_S128x128x128x16_S_d0_1_2_3 h_S_) main_v2 main_c
  let main_v4 : FVec F S128x128x128x3 .f32 := Host.absf main_arg1
  let main_cst_0 : FVec F S_ .f32 := constant S_ .f32 0x7F800000#32
  let main_v5 : FVec F S128x128x128x3 .f32 := broadcastInDim S128x128x128x3 ![] bcast_S_S128x128x128x3 main_cst_0
  let main_v6 : IVec S128x128x128x3 1 := cmpf .olt main_v4 main_v5
  let main_c_1 : IVec S_ 1 := constantI S_ 1 1#1
  let main_v7 : IVec S_ 1 := (fun x v => Host.reduce IntOp.andi x v reducesTo_S128x128x128x3_S_d0_1_2_3 h_S_) main_v6 main_c_1
  let main_v8 : IVec S_ 1 := andi main_v3 main_v7
  let main_v9 : FVec F S16x3 .f32 := Host.absf main_arg2
  let main_cst_2 : FVec F S_ .f32 := constant S_ .f32 0x7F800000#32
  let main_v10 : FVec F S16x3 .f32 := broadcastInDim S16x3 ![] bcast_S_S16x3 main_cst_2
  let main_v11 : IVec S16x3 1 := cmpf .olt main_v9 main_v10
  let main_c_3 : IVec S_ 1 := constantI S_ 1 1#1
  let main_v12 : IVec S_ 1 := (fun x v => Host.reduce IntOp.andi x v reducesTo_S16x3_S_d0_1 h_S_) main_v11 main_c_3
  let main_v13 : IVec S_ 1 := andi main_v8 main_v12
  let main_v14 : FVec F S16x3 .f32 := Host.absf main_arg3
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_v13 main_v16
-- ==== Kernel.lean ====
abbrev S128x128x128x16 : Shape := ⟨4, ![128, 128, 128, 16]⟩
abbrev S128x128x128x3 : Shape := ⟨4, ![128, 128, 128, 3]⟩
abbrev S16x3 : Shape := ⟨2, ![16, 3]⟩
abbrev S2097152x16 : Shape := ⟨2, ![2097152, 16]⟩
abbrev S2097152x3 : Shape := ⟨2, ![2097152, 3]⟩
abbrev S3x2097152 : Shape := ⟨2, ![3, 2097152]⟩
abbrev S_ : Shape := ⟨0, ![]⟩
abbrev S16 : Shape := ⟨1, ![16]⟩
abbrev S16x1 : Shape := ⟨2, ![16, 1]⟩
abbrev S2x16x16 : Shape := ⟨3, ![2, 16, 16]⟩
abbrev S3x32768 : Shape := ⟨2, ![3, 32768]⟩
abbrev S32768x16 : Shape := ⟨2, ![32768, 16]⟩
abbrev S1x16x16 : Shape := ⟨3, ![1, 16, 16]⟩
abbrev S16x16 : Shape := ⟨2, ![16, 16]⟩
abbrev S1x32768 : Shape := ⟨2, ![1, 32768]⟩
abbrev S16x32768 : Shape := ⟨2, ![16, 32768]⟩

abbrev nBuf : Space → Nat
  | .hbm => 23
  | .vmem => 9
  | .smem => 0
  | _ => 0

abbrev bufTy : (tb : Table) → Fin (tcTables nBuf tb) → BufTy
  | .hbm, ⟨0, _⟩ => ⟨S128x128x128x16, .f32⟩
  | .hbm, ⟨1, _⟩ => ⟨S128x128x128x3, .f32⟩
  | .hbm, ⟨2, _⟩ => ⟨S16x3, .f32⟩
  | .hbm, ⟨3, _⟩ => ⟨S16x3, .f32⟩
  | .hbm, ⟨4, _⟩ => ⟨S2097152x16, .f32⟩
  | .hbm, ⟨5, _⟩ => ⟨S2097152x3, .f32⟩
  | .hbm, ⟨6, _⟩ => ⟨S3x2097152, .f32⟩
  | .hbm, ⟨7, _⟩ => ⟨S16x3, .f32⟩
  | .hbm, ⟨8, _⟩ => ⟨S_, .f32⟩
  | .hbm, ⟨9, _⟩ => ⟨S16, .f32⟩
  | .hbm, ⟨10, _⟩ => ⟨S16x3, .f32⟩
  | .hbm, ⟨11, _⟩ => ⟨S_, .f32⟩
  | .hbm, ⟨12, _⟩ => ⟨S16, .f32⟩
  | .hbm, ⟨13, _⟩ => ⟨S16x3, .f32⟩
  | .hbm, ⟨14, _⟩ => ⟨S_, .f32⟩
  | .hbm, ⟨15, _⟩ => ⟨S16, .f32⟩
  | .hbm, ⟨16, _⟩ => ⟨S16x1, .f32⟩
  | .hbm, ⟨17, _⟩ => ⟨S16x1, .f32⟩
  | .hbm, ⟨18, _⟩ => ⟨S16x1, .f32⟩
  | .hbm, ⟨19, _⟩ => ⟨S16x3, .f32⟩
  | .hbm, ⟨20, _⟩ => ⟨S2x16x16, .f32⟩
  | .hbm, ⟨21, _⟩ => ⟨S_, .f32⟩
  | .hbm, ⟨22, _⟩ => ⟨S16x16, .f32⟩
  | .local _ .vmem, ⟨0, _⟩ => ⟨S3x32768, .f32⟩
  | .local _ .vmem, ⟨1, _⟩ => ⟨S3x32768, .f32⟩
  | .local _ .vmem, ⟨2, _⟩ => ⟨S32768x16, .f32⟩
  | .local _ .vmem, ⟨3, _⟩ => ⟨S32768x16, .f32⟩
  | .local _ .vmem, ⟨4, _⟩ => ⟨S16x3, .f32⟩
  | .local _ .vmem, ⟨5, _⟩ => ⟨S16x3, .f32⟩
  | .local _ .vmem, ⟨6, _⟩ => ⟨S16x3, .f32⟩
  | .local _ .vmem, ⟨7, _⟩ => ⟨S1x16x16, .f32⟩
  | .local _ .vmem, ⟨8, _⟩ => ⟨S1x16x16, .f32⟩
  | _, _ => ⟨S128x128x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32768x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S128x128x128x16_S2097152x16 : S128x128x128x16.ShapeCasts S2097152x16
  shapeCasts_S128x128x128x3_S2097152x3 : S128x128x128x3.ShapeCasts S2097152x3
  transposes_S2097152x3_S3x2097152_1_0 : S2097152x3.Transposes [1, 0] S3x2097152
  reducesTo_S16x3_S16_d1 : S16x3.ReducesTo [1] S16
  h_S_ : 0 < S_.numel
  bcast_S16_S16x1_0 : S16.BroadcastsInDim S16x1 (![0] : Fin 1 → Fin S16x1.rank)
  concatenates_S16x1_S16x1_S16x1_S16x3_d1 : Shape.Concatenates [S16x1, S16x1, S16x1] S16x3 1
  inb_S1x16x16_S1x16x16_0_0_0 : ∀ a, (![0, 0, 0] : Fin 3 → Nat) a + S1x16x16.size a ≤ S1x16x16.size a
  h_S1x16x16 : 0 < S1x16x16.numel
  shapeCasts_S1x16x16_S16x16 : S1x16x16.ShapeCasts S16x16
  shapeCasts_S16x16_S1x16x16 : S16x16.ShapeCasts S1x16x16
  inb_S3x32768_S1x32768_0_0 : ∀ a, (![0, 0] : Fin 2 → Nat) a + S1x32768.size a ≤ S3x32768.size a
  h_S1x32768 : 0 < S1x32768.numel
  shapeCasts_S1x32768_S1x32768 : S1x32768.ShapeCasts S1x32768
  inb_S3x32768_S1x32768_1_0 : ∀ a, (![1, 0] : Fin 2 → Nat) a + S1x32768.size a ≤ S3x32768.size a
  inb_S3x32768_S1x32768_2_0 : ∀ a, (![2, 0] : Fin 2 → Nat) a + S1x32768.size a ≤ S3x32768.size a
  inb_S16x3_S16x1_0_0 : ∀ a, (![0, 0] : Fin 2 → Nat) a + S16x1.size a ≤ S16x3.size a
  h_S16x1 : 0 < S16x1.numel
  inb_S16x3_S16x1_0_1 : ∀ a, (![0, 1] : Fin 2 → Nat) a + S16x1.size a ≤ S16x3.size a
  inb_S16x3_S16x1_0_2 : ∀ a, (![0, 2] : Fin 2 → Nat) a + S16x1.size a ≤ S16x3.size a
  shapeCasts_S16x1_S16x1 : S16x1.ShapeCasts S16x1
  broadcasts_S16x1_S16x32768 : S16x1.Broadcasts S16x32768
  broadcasts_S1x32768_S16x32768 : S1x32768.Broadcasts S16x32768
  bitsLt_bf16_f32 : FTy.bits .bf16 < FTy.bits .f32
  inb_S32768x16_S32768x16_0_0 : ∀ a, (![0, 0] : Fin 2 → Nat) a + S32768x16.size a ≤ S32768x16.size a
  h_S32768x16 : 0 < S32768x16.numel
  shapeCasts_S32768x16_S32768x16 : S32768x16.ShapeCasts S32768x16
  reducesTo_S2x16x16_S16x16_d0 : S2x16x16.ReducesTo [0] S16x16
  dot_S16x32768_S32768x16_S16x16_1_0_0_1_n_n_wf : DotDims.WF S16x32768 S32768x16 S16x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32768.size a ≤ S3x2097152.size a
  hwx0_0 : ∀ i : grid0.Coords, EltTy.bits .f32 = 32 ∨ (Rect.block (s := S3x2097152) S3x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32768x16.size a ≤ S2097152x16.size a
  hwx0_1 : ∀ i : grid0.Coords, EltTy.bits .f32 = 32 ∨ (Rect.block (s := S2097152x16) S32768x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x3.size a ≤ S16x3.size a
  hwx0_2 : ∀ i : grid0.Coords, EltTy.bits .f32 = 32 ∨ (Rect.block (s := S16x3) S16x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x3.size a ≤ S16x3.size a
  hwx0_3 : ∀ i : grid0.Coords, EltTy.bits .f32 = 32 ∨ (Rect.block (s := S16x3) S16x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x3.size a ≤ S16x3.size a
  hwx0_4 : ∀ i : grid0.Coords, EltTy.bits .f32 = 32 ∨ (Rect.block (s := S16x3) S16x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x16.size a ≤ S2x16x16.size a
  hwx0_5 : ∀ i : grid0.Coords, EltTy.bits .f32 = 32 ∨ (Rect.block (s := S2x16x16) S1x16x16.size (cc0_transform_5 i) (hinb0_5 i)).WholeWords (EltTy.packing .f32)

variable [Facts₀]

def dot_S16x32768_S32768x16_S16x16_1_0_0_1_n_n : DotDims S16x32768 S32768x16 S16x16 where
  lhsContracting := [1]
  rhsContracting := [0]
  lhsNonContracting := [0]
  rhsNonContracting := [1]
  lhsBatch := []
  rhsBatch := []
  wf := dot_S16x32768_S32768x16_S16x16_1_0_0_1_n_n_wf

abbrev win0_0 : Pipeline.Window sig grid0 :=
  Pipeline.Window.ofSpec (Memref.whole main_v2) S3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32768x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S16x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x16x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x128x128x16 : Shape := ⟨4, ![128, 128, 128, 16]⟩
abbrev S128x128x128x3 : Shape := ⟨4, ![128, 128, 128, 3]⟩
abbrev S16x3 : Shape := ⟨2, ![16, 3]⟩
abbrev S2097152x16 : Shape := ⟨2, ![2097152, 16]⟩
abbrev S2097152x3 : Shape := ⟨2, ![2097152, 3]⟩
abbrev S_ : Shape := ⟨0, ![]⟩
abbrev S2097152 : Shape := ⟨1, ![2097152]⟩
abbrev S3x16 : Shape := ⟨2, ![3, 16]⟩
abbrev S16 : Shape := ⟨1, ![16]⟩
abbrev S16x2097152 : Shape := ⟨2, ![16, 2097152]⟩
abbrev S16x1 : Shape := ⟨2, ![16, 1]⟩
abbrev S1x2097152 : Shape := ⟨2, ![1, 2097152]⟩
abbrev S16x16 : Shape := ⟨2, ![16, 16]⟩

abbrev nBuf : Space → Nat
  | .hbm => 55
  | .vmem => 0
  | .smem => 0
  | _ => 0

abbrev bufTy : (tb : Table) → Fin (tcTables nBuf tb) → BufTy
  | .hbm, ⟨0, _⟩ => ⟨S128x128x128x16, .f32⟩
  | .hbm, ⟨1, _⟩ => ⟨S128x128x128x3, .f32⟩
  | .hbm, ⟨2, _⟩ => ⟨S16x3, .f32⟩
  | .hbm, ⟨3, _⟩ => ⟨S16x3, .f32⟩
  | .hbm, ⟨4, _⟩ => ⟨S2097152x16, .f32⟩
  | .hbm, ⟨5, _⟩ => ⟨S2097152x3, .f32⟩
  | .hbm, ⟨6, _⟩ => ⟨S2097152x3, .f32⟩
  | .hbm, ⟨7, _⟩ => ⟨S_, .f32⟩
  | .hbm, ⟨8, _⟩ => ⟨S2097152, .f32⟩
  | .hbm, ⟨9, _⟩ => ⟨S3x16, .f32⟩
  | .hbm, ⟨10, _⟩ => ⟨S2097152x16, .f32⟩
  | .hbm, ⟨11, _⟩ => ⟨S3x16, .f32⟩
  | .hbm, ⟨12, _⟩ => ⟨S2097152x16, .f32⟩
  | .hbm, ⟨13, _⟩ => ⟨S16x3, .f32⟩
  | .hbm, ⟨14, _⟩ => ⟨S_, .f32⟩
  | .hbm, ⟨15, _⟩ => ⟨S16, .f32⟩
  | .hbm, ⟨16, _⟩ => ⟨S16x3, .f32⟩
  | .hbm, ⟨17, _⟩ => ⟨S_, .f32⟩
  | .hbm, ⟨18, _⟩ => ⟨S16, .f32⟩
  | .hbm, ⟨19, _⟩ => ⟨S16x3, .f32⟩
  | .hbm, ⟨20, _⟩ => ⟨S_, .f32⟩
  | .hbm, ⟨21, _⟩ => ⟨S16, .f32⟩
  | .hbm, ⟨22, _⟩ => ⟨S16x2097152, .f32⟩
  | .hbm, ⟨23, _⟩ => ⟨S16x1, .f32⟩
  | .hbm, ⟨24, _⟩ => ⟨S16x2097152, .f32⟩
  | .hbm, ⟨25, _⟩ => ⟨S16x2097152, .f32⟩
  | .hbm, ⟨26, _⟩ => ⟨S1x2097152, .f32⟩
  | .hbm, ⟨27, _⟩ => ⟨S16x2097152, .f32⟩
  | .hbm, ⟨28, _⟩ => ⟨S_, .f32⟩
  | .hbm, ⟨29, _⟩ => ⟨S16x2097152, .f32⟩
  | .hbm, ⟨30, _⟩ => ⟨S16x2097152, .f32⟩
  | .hbm, ⟨31, _⟩ => ⟨S16x2097152, .f32⟩
  | .hbm, ⟨32, _⟩ => ⟨S16x2097152, .f32⟩
  | .hbm, ⟨33, _⟩ => ⟨S16x1, .f32⟩
  | .hbm, ⟨34, _⟩ => ⟨S16x2097152, .f32⟩
  | .hbm, ⟨35, _⟩ => ⟨S16x2097152, .f32⟩
  | .hbm, ⟨36, _⟩ => ⟨S16x2097152, .f32⟩
  | .hbm, ⟨37, _⟩ => ⟨S16x1, .f32⟩
  | .hbm, ⟨38, _⟩ => ⟨S_, .f32⟩
  | .hbm, ⟨39, _⟩ => ⟨S16x1, .f32⟩
  | .hbm, ⟨40, _⟩ => ⟨S16x1, .f32⟩
  | .hbm, ⟨41, _⟩ => ⟨S16x2097152, .f32⟩
  | .hbm, ⟨42, _⟩ => ⟨S16x2097152, .f32⟩
  | .hbm, ⟨43, _⟩ => ⟨S16x2097152, .f32⟩
  | .hbm, ⟨44, _⟩ => ⟨S16x2097152, .f32⟩
  | .hbm, ⟨45, _⟩ => ⟨S_, .f32⟩
  | .hbm, ⟨46, _⟩ => ⟨S16x2097152, .f32⟩
  | .hbm, ⟨47, _⟩ => ⟨S16x2097152, .f32⟩
  | .hbm, ⟨48, _⟩ => ⟨S16x2097152, .f32⟩
  | .hbm, ⟨49, _⟩ => ⟨S_, .f32⟩
  | .hbm, ⟨50, _⟩ => ⟨S16x2097152, .f32⟩
  | .hbm, ⟨51, _⟩ => ⟨S16x2097152, .f32⟩
  | .hbm, ⟨52, _⟩ => ⟨S16x2097152, .f32⟩
  | .hbm, ⟨53, _⟩ => ⟨S16x2097152, .f32⟩
  | .hbm, ⟨54, _⟩ => ⟨S16x16, .f32⟩
  | _, _ => ⟨S128x128x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]

class Facts₀ : Prop where
  shapeCasts_S128x128x128x16_S2097152x16 : S128x128x128x16.ShapeCasts S2097152x16
  shapeCasts_S128x128x128x3_S2097152x3 : S128x128x128x3.ShapeCasts S2097152x3
  reducesTo_S2097152x3_S2097152_d1 : S2097152x3.ReducesTo [1] S2097152
  h_S_ : 0 < S_.numel
  transposes_S16x3_S3x16_1_0 : S16x3.Transposes [1, 0] S3x16
  reducesTo_S16x3_S16_d1 : S16x3.ReducesTo [1] S16
  transposes_S2097152x16_S16x2097152_1_0 : S2097152x16.Transposes [1, 0] S16x2097152
  bcast_S16_S16x1_0 : S16.BroadcastsInDim S16x1 (![0] : Fin 1 → Fin S16x1.rank)
  bcast_S16x1_S16x2097152_0_1 : S16x1.BroadcastsInDim S16x2097152 (![0, 1] : Fin 2 → Fin S16x2097152.rank)
  bcast_S2097152_S1x2097152_1 : S2097152.BroadcastsInDim S1x2097152 (![1] : Fin 1 → Fin S1x2097152.rank)
  bcast_S_S16x2097152 : S_.BroadcastsInDim S16x2097152 (![] : Fin 0 → Fin S16x2097152.rank)
  bcast_S1x2097152_S16x2097152_0_1 : S1x2097152.BroadcastsInDim S16x2097152 (![0, 1] : Fin 2 → Fin S16x2097152.rank)
  bcast_S_S16x1 : S_.BroadcastsInDim S16x1 (![] : Fin 0 → Fin S16x1.rank)
  dot_S2097152x3_S3x16_S2097152x16_1_0_0_1_n_n_wf : DotDims.WF S2097152x3 S3x16 S2097152x16 [1] [0] [0] [1] [] []
  dot_S16x2097152_S2097152x16_S16x16_1_0_0_1_n_n_wf : DotDims.WF S16x2097152 S2097152x16 S16x16 [1] [0] [0] [1] [] []

variable [Facts₀]

def dot_S2097152x3_S3x16_S2097152x16_1_0_0_1_n_n : DotDims S2097152x3 S3x16 S2097152x16 where
  lhsContracting := [1]
  rhsContracting := [0]
  lhsNonContracting := [0]
  rhsNonContracting := [1]
  lhsBatch := []
  rhsBatch := []
  wf := dot_S2097152x3_S3x16_S2097152x16_1_0_0_1_n_n_wf
def dot_S16x2097152_S2097152x16_S16x16_1_0_0_1_n_n : DotDims S16x2097152 S2097152x16 S16x16 where
  lhsContracting := [1]
  rhsContracting := [0]
  lhsNonContracting := [0]
  rhsNonContracting := [1]
  lhsBatch := []
  rhsBatch := []
  wf := dot_S16x2097152_S2097152x16_S16x16_1_0_0_1_n_n_wf

class Facts : Prop extends Facts₀ where

variable [Facts]
-- ==== Proof.Bits.Entry.lean ====
/-
  The sweep of the lattice by blocks, read at its entry.

  The program flattens the lattice to 2097152 points, lays the coordinates out as three rows, forms for every ray
  the three scalars o·d, |o|², |d|² (a 16×3 table, three columns glued side by side), then sweeps the points in 64
  blocks of 32768 — two halves of 32 blocks, one result slab per half — and finally adds the two slabs.

  This module fixes what the sweep is stated over: the contents of every array when the sweep starts (the sixteen
  host lines applied to the arguments), each window's block at a grid point read off those contents, the one
  condition the body branches on (the inner coordinate is zero: the slab is cleared before it is added to) in
  closed form over the 64 points, and how the statement "the arguments end unchanged" follows from a run that
  names every array after the sweep.
-/
import proofs.«134575_j71803263255265_1_alg».proof.Proof.Gen.Kernel.Launch
import proofs.«134575_j71803263255265_1_alg».proof.Proof.Gen.Kernel.Skeleton
import proofs.«134575_j71803263255265_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the sweep starts -/

/-- Every array of core `c` after the sixteen host lines that precede the sweep, as a valuation. -/
abbrev V0 (c : Dev nD) : Valuation τ sig (Elt F) := StableHlo.after (List.flatten [hostOps0]) (fun b => m (c, b))
/-- The same, read at one array. -/
abbrev V (c : Dev nD) (b : Ref sig .tc) : Buf (Elt F) ((c : Thread nD τ).loc b) := V0 m c (Proc.devRef .tc b)

/-- The lines before the sweep allocate nothing. -/
theorem hostOps0_fresh : (hostOps0 : List (HloOp τ sig (Elt F))).Forall fun op => op.fresh = ∅ := by
  simp only [List.Forall]; repeat' constructor
/-- Nor do the two lines after it. -/
theorem hostOps1_fresh : (hostOps1 : List (HloOp τ sig (Elt F))).Forall fun op => op.fresh = ∅ := by
  simp only [List.Forall]; repeat' constructor

/-- The program is: the lines before, the sweep, the lines after. So it reduces to the sweep continued by the two
    closing lines, entered with the arrays at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The closing lines touch only arrays the sweep stages or bypasses. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write none of the six arrays the sweep stages: each writes its own result only (the zero, the final sum). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.binary_writes, Finset.mem_singleton] <;> exact StableHlo.devRef_ne_of_ne (by decide)

/-- No line before the sweep writes an argument: the sweep finds the four of them as launched. -/
theorem V_arg (c : Dev nD) (b : Ref sig .tc) (hb : b = main_arg0 ∨ b = main_arg1 ∨ b = main_arg2 ∨ b = main_arg3) :
    V m c b = m ((c : Thread nD τ).loc b) := by
  rcases hb with rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.reshape_writes, StableHlo.nary_writes, Finset.mem_singleton]
      repeat' apply And.intro
      all_goals exact StableHlo.devRef_ne_of_ne (by decide)))

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr (.inl rfl))
theorem V_main_arg2 (c : Dev nD) : V m c main_arg2 = m ((c : Thread nD τ).loc main_arg2) := V_arg m c _ (.inr (.inr (.inl rfl)))
theorem V_main_arg3 (c : Dev nD) : V m c main_arg3 = m ((c : Thread nD τ).loc main_arg3) := V_arg m c _ (.inr (.inr (.inr rfl)))

/-! ## The windows' blocks -/

/-- Window `w`'s block at grid point `t`: the rectangle of its array the point's index selects, read off `V`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether the pipeline fetched it there or the
    index did not move since the last fetch (the three ray tables are fetched once): for any proof data over `V`
    whose body leaves the inputs' blocks in place. One statement per input window: the lattice rows, the field slab,
    the ray directions, the ray origins, the table of ray scalars. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The body clears its result slab when the inner grid coordinate is zero. -/
abbrev atStart (i : grid0.Coords) : Prop :=
  (Scalar.cmpi .ne (Scalar.extui (Scalar.cmpi .eq (BitVec.ofNat 32 (i 1).val) 0#32)) 0#32) = 1#1
/-- That is at the points 0 and 32 of the 64: the first block of each half. -/
theorem atStart_iff : ∀ t : Fin cfg0.N, atStart (grid0.coords t) ↔ t.val % 32 = 0 :=
  (by decide +kernel : ∀ t : Fin grid0.N, atStart (grid0.coords t) ↔ t.val % 32 = 0)

/-- No window is ever idle. -/
theorem live : ∀ (w : Fin cfg0.W) (i : grid0.Coords), cfg0.idle w i = false := by decide +kernel

/-! ## The staging memrefs the body is called with -/

abbrev ms0 (t : Fin cfg0.N) : Memref sig .tc .vmem S3x32768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32768x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x3 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16x16 .f32 := win0_5.stage (cfg0.slots t 5)
abbrev hs5 (t : Fin cfg0.N) : (ms5 t).IsWhole := hstage0_5 ((cfg0.slots t 5).cast nbuf0_5)
/-- One staging buffer of the result slab, through which its contents are stated (which one does not matter). -/
abbrev slabView : View sig .tc .vmem S1x16x16 .f32 := (Memref.whole cc0_stg5_0 : Memref sig .tc .vmem S1x16x16 .f32).view

/-! ## "The arguments end unchanged", from a run that names every array -/

/-- A final state with every staged array at what the proof data computes and every bypassing array as the closing
    lines leave it has, in particular, the four arguments as launched: the two ray tables are staged inputs (an
    input's array is never written), the two large arguments bypass the sweep and no closing line writes them. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ?_, ?_, ?_⟩
  · refine ((h c).2 main_arg0 (by decide)).trans ?_
    unfold Pipeline.afterTail₀
    rw [StableHlo.after_of_forall_not_mem (b := Proc.devRef .tc main_arg0) _ _ (List.forall_iff_forall_mem.mp (by
      simp only [hostOps1, List.flatten_cons, List.flatten_nil, List.append_nil, List.Forall, StableHlo.nullary_writes,
        StableHlo.binary_writes, Finset.mem_singleton]
      repeat' apply And.intro
      all_goals exact StableHlo.devRef_ne_of_ne (by decide))),
      Pipeline.withArrays_of_ne _ _ _ _ main_arg0 (by decide)]
    exact V_main_arg0 m c
  · refine ((h c).2 main_arg1 (by decide)).trans ?_
    unfold Pipeline.afterTail₀
    rw [StableHlo.after_of_forall_not_mem (b := Proc.devRef .tc main_arg1) _ _ (List.forall_iff_forall_mem.mp (by
      simp only [hostOps1, List.flatten_cons, List.flatten_nil, List.append_nil, List.Forall, StableHlo.nullary_writes,
        StableHlo.binary_writes, Finset.mem_singleton]
      repeat' apply And.intro
      all_goals exact StableHlo.devRef_ne_of_ne (by decide))),
      Pipeline.withArrays_of_ne _ _ _ _ main_arg1 (by decide)]
    exact V_main_arg1 m c
  · exact ((h c).1 3).trans (((dats 0 c).arrAt_in 3 rfl _).trans ((hA c 3).trans (V_main_arg2 m c)))
  · exact ((h c).1 2).trans (((dats 0 c).arrAt_in 2 rfl _).trans ((hA c 2).trans (V_main_arg3 m c)))

/-- So a run to such states is a run after which the four arguments are unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m dats hA r h c) h

end Cert.Kernel.Sweep

end
-- ==== Proof.Bits.StepStart.lean ====
/-
  The body at the first block of a half.

  The inner coordinate is zero, so the body first clears the result slab (whatever it held), then computes the
  block's contribution — for each of the 16 rays the weights of the block's 32768 points, contracted against the
  block of the field — and stores "slab + contribution" over the slab it has just cleared. The five inputs are only
  read. What the slab holds afterwards is recorded as the list of pieces the stores wrote (the clearing, then the
  sum over it), found by running the body symbolically.
-/
import proofs.«134575_j71803263255265_1_alg».proof.Proof.Bits.Entry

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result slab at a point where the slab is cleared first, with the proof
    that on whole staging buffers — the inputs' at given contents, the slab's at anything — the body runs to its
    end, faults nowhere, hands the inputs back as they were and the slab with those pieces written. -/
noncomputable def stepStart (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : atStart i)
    (x0 : Vec F S3x32768 .f32) (x1 : Vec F S32768x16 .f32) (x2 x3 x4 : Vec F S16x3 .f32) :
    { L : List (View.Piece (Elt F) S1x16x16 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ (∃ d, owns (c : Thread nD τ) a7 fullShare d)
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ (∃ f, a7.view.loc (c : Thread nD τ) ↦[a7.view.set]{fullShare} a7.view.writes (Elt F) f L)) -∗ K ⟨⟩))
          ⊢ wp frame (wpE (defs₀ (F := F)) Variants.none c none) E (cc0__kernel i a2 h2 a3 h3 a4 h4 a5 h5 a6 h6 a7 h7) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h2.eq_unread hf0; obtain rfl := h3.eq_unread hf1; obtain rfl := h4.eq_unread hf2; obtain rfl := h5.eq_unread hf3; obtain rfl := h6.eq_unread hf4
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact H5

end Cert.Kernel.Sweep

end
-- ==== Proof.Bits.StepLater.lean ====
/-
  The body at a later block of a half.

  The inner coordinate is not zero: nothing is cleared. The slab holds the running sum the block before left; the
  body computes this block's contribution (the weights of its 32768 points for each of the 16 rays, contracted
  against the block of the field) and stores "running sum + contribution" over the whole slab. The five inputs are
  only read. The pieces the store wrote are found by running the body symbolically.
-/
import proofs.«134575_j71803263255265_1_alg».proof.Proof.Bits.StepStart

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the result slab at a point where the slab carries a running sum `acc`,
    with the proof that on whole staging buffers — the inputs' at given contents, the slab's at `acc` — the body
    runs to its end, faults nowhere, hands the inputs back as they were and the slab with those pieces written. -/
noncomputable def stepLater (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : ¬atStart i)
    (x0 : Vec F S3x32768 .f32) (x1 : Vec F S32768x16 .f32) (x2 x3 x4 : Vec F S16x3 .f32) (acc : Vec F S1x16x16 .f32) :
    { L : List (View.Piece (Elt F) S1x16x16 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare acc
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ (∃ f, a7.view.loc (c : Thread nD τ) ↦[a7.view.set]{fullShare} a7.view.writes (Elt F) f L)) -∗ K ⟨⟩))
          ⊢ wp frame (wpE (defs₀ (F := F)) Variants.none c none) E (cc0__kernel i a2 h2 a3 h3 a4 h4 a5 h5 a6 h6 a7 h7) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact H5

end Cert.Kernel.Sweep

end
-- ==== Proof.Bits.Sweep.lean ====
/-
  The sweep: what the result slab holds after every block, and that the whole program runs.

  The slab of a half is cleared at the half's first block and is then a running sum: after block t it holds what the
  body's stores left there, computed from the block's five inputs and — except at a first block — from what block
  t − 1 left. Between two blocks of one half the slab stays in its staging buffer (it is written back to the array
  only after a half's last block), which is why the body finds its own previous result there.

  With that recursion as the proof data, every grid point's body runs (the two runs of the modules before, chosen by
  whether the point is a first block), the pipeline's launch theorem gives a run of the whole program that names
  every array at its end, and the frame claim is read off it.
-/
import proofs.«134575_j71803263255265_1_alg».proof.Proof.Bits.StepLater
import Idealize.ShloMosaic.Lib.Ring

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores at a first block (the clearing, then the sum) cover the slab. -/
theorem coverStart (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : atStart i) (x0 : Vec F S3x32768 .f32) (x1 : Vec F S32768x16 .f32) (x2 x3 x4 : Vec F S16x3 .f32) (y : S1x16x16.Idx) :
    ∃ pc ∈ (stepStart c i a2 h2 a3 h3 a4 h4 a5 h5 a6 h6 a7 h7 hc x0 x1 x2 x3 x4).1, y ∈ pc.1.set :=
  View.cover_of_tiledL (stepStart c i a2 h2 a3 h3 a4 h4 a5 h5 a6 h6 a7 h7 hc x0 x1 x2 x3 x4).1 S1x16x16.size (by sl_kernel_rfl) y

/-- What a first block leaves in the slab: its pieces read back. -/
def slabStart (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : atStart i) (x0 : Vec F S3x32768 .f32) (x1 : Vec F S32768x16 .f32) (x2 x3 x4 : Vec F S16x3 .f32) : Vec F S1x16x16 .f32 :=
  slabView.read (Elt F) (slabView.writes (Elt F) slabView.junk (stepStart c i a2 h2 a3 h3 a4 h4 a5 h5 a6 h6 a7 h7 hc x0 x1 x2 x3 x4).1)

/-- The one store at a later block covers the slab. -/
theorem coverLater (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : ¬atStart i) (x0 : Vec F S3x32768 .f32) (x1 : Vec F S32768x16 .f32) (x2 x3 x4 : Vec F S16x3 .f32) (acc : Vec F S1x16x16 .f32) (y : S1x16x16.Idx) :
    ∃ pc ∈ (stepLater c i a2 h2 a3 h3 a4 h4 a5 h5 a6 h6 a7 h7 hc x0 x1 x2 x3 x4 acc).1, y ∈ pc.1.set :=
  View.cover_of_tiledL (stepLater c i a2 h2 a3 h3 a4 h4 a5 h5 a6 h6 a7 h7 hc x0 x1 x2 x3 x4 acc).1 S1x16x16.size (by sl_kernel_rfl) y

/-- What a later block leaves in the slab over the running sum `acc`: its pieces read back. -/
def slabLater (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : ¬atStart i) (x0 : Vec F S3x32768 .f32) (x1 : Vec F S32768x16 .f32) (x2 x3 x4 : Vec F S16x3 .f32) (acc : Vec F S1x16x16 .f32) : Vec F S1x16x16 .f32 :=
  slabView.read (Elt F) (slabView.writes (Elt F) slabView.junk (stepLater c i a2 h2 a3 h3 a4 h4 a5 h5 a6 h6 a7 h7 hc x0 x1 x2 x3 x4 acc).1)

/-! ## The running slab, block by block -/

/-- THE RECURSION. What the slab's staging buffer holds after the body at block `n`: at a first block of a half what
    that block leaves; at a later block what it leaves over the slab after block `n − 1`. -/
def slabAt (c : Dev nD) : (n : ℕ) → n < cfg0.N → Vec F S1x16x16 .f32
  | 0, hn => slabStart c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((atStart_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 32 = 0 then
      slabStart c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((atStart_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      slabLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => h0 ((atStart_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (slabAt c n (Nat.lt_of_succ_lt hn))

/-- At a first block. -/
theorem slabAt_start (c : Dev nD) (t : Fin cfg0.N) (h0 : t.val % 32 = 0) :
    slabAt m c t.val t.isLt = slabStart c (grid0.coords t) (ms0 t) (hs0 t) (ms1 t) (hs1 t) (ms2 t) (hs2 t) (ms3 t) (hs3 t) (ms4 t) (hs4 t) (ms5 t) (hs5 t) ((atStart_iff t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- At a later block: over what the block before left. -/
theorem slabAt_later (c : Dev nD) (t : Fin cfg0.N) (h0 : ¬t.val % 32 = 0) :
    slabAt m c t.val t.isLt = slabLater c (grid0.coords t) (ms0 t) (hs0 t) (ms1 t) (hs1 t) (ms2 t) (hs2 t) (ms3 t) (hs3 t) (ms4 t) (hs4 t) (ms5 t) (hs5 t) (fun h => h0 ((atStart_iff t).mp h)) (iblk m c 0 t) (iblk m c 1 t) (iblk m c 2 t) (iblk m c 3 t) (iblk m c 4 t) (slabAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the sweep finds them; after the body at point `t` every input's buffer still at its block and the
    slab's at `slabAt`; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => slabAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = slabAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-- At a later block the slab's buffer holds what the block before left: the point is not the first, and the slab was
    not written back in between (it is written back only after blocks 31 and 63). -/
theorem before5_later (c : Dev nD) (t : Fin cfg0.N) (h0 : ¬t.val % 32 = 0) (d) :
    (dats m 0 c).before 5 t d = slabAt m c (t.val - 1) (Nat.lt_of_le_of_lt (Nat.sub_le _ _) t.isLt) := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the closed form says whether the point is a first
    block; at a later block the slab's buffer holds what the block before left; so the matching run applies, and what it
    hands back is the proof data's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  have hN : t.val < 64 := lt_of_lt_of_eq t.isLt (show cfg0.N = 64 from N_0)
  by_cases h0 : t.val % 32 = 0
  · rw [slabAt_start m c t h0]
    unfold slabStart
    iintro ⟨HΦ, Ho, ⟨%d0, H0⟩, ⟨%d1, H1⟩, ⟨%d2, H2⟩, ⟨%d3, H3⟩, ⟨%d4, H4⟩, ⟨%d5, H5⟩⟩
    iapply ((stepStart c (grid0.coords t) _ _ _ _ _ _ _ _ _ _ _ _ ((atStart_iff t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverStart c _ _ _ _ _ _ _ _ _ _ _ _ _ _ _ _ _ _ _)
  · rw [slabAt_later m c t h0]
    simp only [before5_later m c t h0]
    unfold slabLater
    iintro ⟨HΦ, Ho, ⟨%d0, H0⟩, ⟨%d1, H1⟩, ⟨%d2, H2⟩, ⟨%d3, H3⟩, ⟨%d4, H4⟩, ⟨%d5, H5⟩⟩
    iapply ((stepLater c (grid0.coords t) _ _ _ _ _ _ _ _ _ _ _ _ (fun h => h0 ((atStart_iff t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, faults nowhere, and ends
    with each staged array at what the proof data computes (the result array: its two slabs as the halves' last blocks
    left them) and every other array as the two closing lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program runs and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Sweep

end
-- ==== Proof.Ideal.Entry.lean ====
/-
  The sweep of the lattice by blocks, read at its entry.

  The program flattens the lattice to 2097152 points, lays the coordinates out as three rows, forms for every ray
  the three scalars o·d, |o|², |d|² (a 16×3 table, three columns glued side by side), then sweeps the points in 64
  blocks of 32768 — two halves of 32 blocks, one result slab per half — and finally adds the two slabs.

  This module fixes what the sweep is stated over: the contents of every array when the sweep starts (the sixteen
  host lines applied to the arguments), each window's block at a grid point read off those contents, the one
  condition the body branches on (the inner coordinate is zero: the slab is cleared before it is added to) in
  closed form over the 64 points, and how the statement "the arguments end unchanged" follows from a run that
  names every array after the sweep.
-/
import proofs.«134575_j71803263255265_1_alg».proof.Proof.Gen.KernelIdeal.Launch
import proofs.«134575_j71803263255265_1_alg».proof.Proof.Gen.KernelIdeal.Skeleton
import proofs.«134575_j71803263255265_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the sweep starts -/

/-- Every array of core `c` after the sixteen host lines that precede the sweep, as a valuation. -/
abbrev V0 (c : Dev nD) : Valuation τ sig (Elt F) := StableHlo.after (List.flatten [hostOps0]) (fun b => m (c, b))
/-- The same, read at one array. -/
abbrev V (c : Dev nD) (b : Ref sig .tc) : Buf (Elt F) ((c : Thread nD τ).loc b) := V0 m c (Proc.devRef .tc b)

/-- The lines before the sweep allocate nothing. -/
theorem hostOps0_fresh : (hostOps0 : List (HloOp τ sig (Elt F))).Forall fun op => op.fresh = ∅ := by
  simp only [List.Forall]; repeat' constructor
/-- Nor do the two lines after it. -/
theorem hostOps1_fresh : (hostOps1 : List (HloOp τ sig (Elt F))).Forall fun op => op.fresh = ∅ := by
  simp only [List.Forall]; repeat' constructor

/-- The program is: the lines before, the sweep, the lines after. So it reduces to the sweep continued by the two
    closing lines, entered with the arrays at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- The closing lines touch only arrays the sweep stages or bypasses. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write none of the six arrays the sweep stages: each writes its own result only (the zero, the final sum). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.binary_writes, Finset.mem_singleton] <;> exact StableHlo.devRef_ne_of_ne (by decide)

/-- No line before the sweep writes an argument: the sweep finds the four of them as launched. -/
theorem V_arg (c : Dev nD) (b : Ref sig .tc) (hb : b = main_arg0 ∨ b = main_arg1 ∨ b = main_arg2 ∨ b = main_arg3) :
    V m c b = m ((c : Thread nD τ).loc b) := by
  rcases hb with rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.reshape_writes, StableHlo.nary_writes, Finset.mem_singleton]
      repeat' apply And.intro
      all_goals exact StableHlo.devRef_ne_of_ne (by decide)))

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr (.inl rfl))
theorem V_main_arg2 (c : Dev nD) : V m c main_arg2 = m ((c : Thread nD τ).loc main_arg2) := V_arg m c _ (.inr (.inr (.inl rfl)))
theorem V_main_arg3 (c : Dev nD) : V m c main_arg3 = m ((c : Thread nD τ).loc main_arg3) := V_arg m c _ (.inr (.inr (.inr rfl)))

/-! ## The windows' blocks -/

/-- Window `w`'s block at grid point `t`: the rectangle of its array the point's index selects, read off `V`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether the pipeline fetched it there or the
    index did not move since the last fetch (the three ray tables are fetched once): for any proof data over `V`
    whose body leaves the inputs' blocks in place. One statement per input window: the lattice rows, the field slab,
    the ray directions, the ray origins, the table of ray scalars. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The body clears its result slab when the inner grid coordinate is zero. -/
abbrev atStart (i : grid0.Coords) : Prop :=
  (Scalar.cmpi .ne (Scalar.extui (Scalar.cmpi .eq (BitVec.ofNat 32 (i 1).val) 0#32)) 0#32) = 1#1
/-- That is at the points 0 and 32 of the 64: the first block of each half. -/
theorem atStart_iff : ∀ t : Fin cfg0.N, atStart (grid0.coords t) ↔ t.val % 32 = 0 :=
  (by decide +kernel : ∀ t : Fin grid0.N, atStart (grid0.coords t) ↔ t.val % 32 = 0)

/-- No window is ever idle. -/
theorem live : ∀ (w : Fin cfg0.W) (i : grid0.Coords), cfg0.idle w i = false := by decide +kernel

/-! ## The staging memrefs the body is called with -/

abbrev ms0 (t : Fin cfg0.N) : Memref sig .tc .vmem S3x32768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32768x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x3 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x3 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16x16 .f32 := win0_5.stage (cfg0.slots t 5)
abbrev hs5 (t : Fin cfg0.N) : (ms5 t).IsWhole := hstage0_5 ((cfg0.slots t 5).cast nbuf0_5)
/-- One staging buffer of the result slab, through which its contents are stated (which one does not matter). -/
abbrev slabView : View sig .tc .vmem S1x16x16 .f32 := (Memref.whole cc0_stg5_0 : Memref sig .tc .vmem S1x16x16 .f32).view

/-! ## "The arguments end unchanged", from a run that names every array -/

/-- A final state with every staged array at what the proof data computes and every bypassing array as the closing
    lines leave it has, in particular, the four arguments as launched: the two ray tables are staged inputs (an
    input's array is never written), the two large arguments bypass the sweep and no closing line writes them. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ?_, ?_, ?_⟩
  · refine ((h c).2 main_arg0 (by decide)).trans ?_
    unfold Pipeline.afterTail₀
    rw [StableHlo.after_of_forall_not_mem (b := Proc.devRef .tc main_arg0) _ _ (List.forall_iff_forall_mem.mp (by
      simp only [hostOps1, List.flatten_cons, List.flatten_nil, List.append_nil, List.Forall, StableHlo.nullary_writes,
        StableHlo.binary_writes, Finset.mem_singleton]
      repeat' apply And.intro
      all_goals exact StableHlo.devRef_ne_of_ne (by decide))),
      Pipeline.withArrays_of_ne _ _ _ _ main_arg0 (by decide)]
    exact V_main_arg0 m c
  · refine ((h c).2 main_arg1 (by decide)).trans ?_
    unfold Pipeline.afterTail₀
    rw [StableHlo.after_of_forall_not_mem (b := Proc.devRef .tc main_arg1) _ _ (List.forall_iff_forall_mem.mp (by
      simp only [hostOps1, List.flatten_cons, List.flatten_nil, List.append_nil, List.Forall, StableHlo.nullary_writes,
        StableHlo.binary_writes, Finset.mem_singleton]
      repeat' apply And.intro
      all_goals exact StableHlo.devRef_ne_of_ne (by decide))),
      Pipeline.withArrays_of_ne _ _ _ _ main_arg1 (by decide)]
    exact V_main_arg1 m c
  · exact ((h c).1 3).trans (((dats 0 c).arrAt_in 3 rfl _).trans ((hA c 3).trans (V_main_arg2 m c)))
  · exact ((h c).1 2).trans (((dats 0 c).arrAt_in 2 rfl _).trans ((hA c 2).trans (V_main_arg3 m c)))

/-- So a run to such states is a run after which the four arguments are unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m dats hA r h c) h

end Cert.KernelIdeal.Sweep

end
-- ==== Proof.Ideal.StepStart.lean ====
/-
  The body at the first block of a half.

  The inner coordinate is zero, so the body first clears the result slab (whatever it held), then computes the
  block's contribution — for each of the 16 rays the weights of the block's 32768 points, contracted against the
  block of the field — and stores "slab + contribution" over the slab it has just cleared. The five inputs are only
  read. What the slab holds afterwards is recorded as the list of pieces the stores wrote (the clearing, then the
  sum over it), found by running the body symbolically.
-/
import proofs.«134575_j71803263255265_1_alg».proof.Proof.Ideal.Entry

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result slab at a point where the slab is cleared first, with the proof
    that on whole staging buffers — the inputs' at given contents, the slab's at anything — the body runs to its
    end, faults nowhere, hands the inputs back as they were and the slab with those pieces written. -/
noncomputable def stepStart (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : atStart i)
    (x0 : Vec F S3x32768 .f32) (x1 : Vec F S32768x16 .f32) (x2 x3 x4 : Vec F S16x3 .f32) :
    { L : List (View.Piece (Elt F) S1x16x16 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ (∃ d, owns (c : Thread nD τ) a7 fullShare d)
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ (∃ f, a7.view.loc (c : Thread nD τ) ↦[a7.view.set]{fullShare} a7.view.writes (Elt F) f L)) -∗ K ⟨⟩))
          ⊢ wp frame (wpE (defs₀ (F := F)) Variants.none c none) E (cc0__kernel i a2 h2 a3 h3 a4 h4 a5 h5 a6 h6 a7 h7) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h2.eq_unread hf0; obtain rfl := h3.eq_unread hf1; obtain rfl := h4.eq_unread hf2; obtain rfl := h5.eq_unread hf3; obtain rfl := h6.eq_unread hf4
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact H5

end Cert.KernelIdeal.Sweep

end
-- ==== Proof.Ideal.StepLater.lean ====
/-
  The body at a later block of a half.

  The inner coordinate is not zero: nothing is cleared. The slab holds the running sum the block before left; the
  body computes this block's contribution (the weights of its 32768 points for each of the 16 rays, contracted
  against the block of the field) and stores "running sum + contribution" over the whole slab. The five inputs are
  only read. The pieces the store wrote are found by running the body symbolically.
-/
import proofs.«134575_j71803263255265_1_alg».proof.Proof.Ideal.StepStart

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the result slab at a point where the slab carries a running sum `acc`,
    with the proof that on whole staging buffers — the inputs' at given contents, the slab's at `acc` — the body
    runs to its end, faults nowhere, hands the inputs back as they were and the slab with those pieces written. -/
noncomputable def stepLater (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : ¬atStart i)
    (x0 : Vec F S3x32768 .f32) (x1 : Vec F S32768x16 .f32) (x2 x3 x4 : Vec F S16x3 .f32) (acc : Vec F S1x16x16 .f32) :
    { L : List (View.Piece (Elt F) S1x16x16 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare acc
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ (∃ f, a7.view.loc (c : Thread nD τ) ↦[a7.view.set]{fullShare} a7.view.writes (Elt F) f L)) -∗ K ⟨⟩))
          ⊢ wp frame (wpE (defs₀ (F := F)) Variants.none c none) E (cc0__kernel i a2 h2 a3 h3 a4 h4 a5 h5 a6 h6 a7 h7) K } := by
  refine ⟨?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact H5

end Cert.KernelIdeal.Sweep

end
-- ==== Proof.Ideal.Sweep.lean ====
/-
  The sweep: what the result slab holds after every block, and that the whole program runs.

  The slab of a half is cleared at the half's first block and is then a running sum: after block t it holds what the
  body's stores left there, computed from the block's five inputs and — except at a first block — from what block
  t − 1 left. Between two blocks of one half the slab stays in its staging buffer (it is written back to the array
  only after a half's last block), which is why the body finds its own previous result there.

  With that recursion as the proof data, every grid point's body runs (the two runs of the modules before, chosen by
  whether the point is a first block), the pipeline's launch theorem gives a run of the whole program that names
  every array at its end, and the frame claim is read off it.
-/
import proofs.«134575_j71803263255265_1_alg».proof.Proof.Ideal.StepLater
import Idealize.ShloMosaic.Lib.Ring

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores at a first block (the clearing, then the sum) cover the slab. -/
theorem coverStart (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : atStart i) (x0 : Vec F S3x32768 .f32) (x1 : Vec F S32768x16 .f32) (x2 x3 x4 : Vec F S16x3 .f32) (y : S1x16x16.Idx) :
    ∃ pc ∈ (stepStart c i a2 h2 a3 h3 a4 h4 a5 h5 a6 h6 a7 h7 hc x0 x1 x2 x3 x4).1, y ∈ pc.1.set :=
  View.cover_of_tiledL (stepStart c i a2 h2 a3 h3 a4 h4 a5 h5 a6 h6 a7 h7 hc x0 x1 x2 x3 x4).1 S1x16x16.size (by sl_kernel_rfl) y

/-- What a first block leaves in the slab: its pieces read back. -/
def slabStart (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : atStart i) (x0 : Vec F S3x32768 .f32) (x1 : Vec F S32768x16 .f32) (x2 x3 x4 : Vec F S16x3 .f32) : Vec F S1x16x16 .f32 :=
  slabView.read (Elt F) (slabView.writes (Elt F) slabView.junk (stepStart c i a2 h2 a3 h3 a4 h4 a5 h5 a6 h6 a7 h7 hc x0 x1 x2 x3 x4).1)

/-- The one store at a later block covers the slab. -/
theorem coverLater (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : ¬atStart i) (x0 : Vec F S3x32768 .f32) (x1 : Vec F S32768x16 .f32) (x2 x3 x4 : Vec F S16x3 .f32) (acc : Vec F S1x16x16 .f32) (y : S1x16x16.Idx) :
    ∃ pc ∈ (stepLater c i a2 h2 a3 h3 a4 h4 a5 h5 a6 h6 a7 h7 hc x0 x1 x2 x3 x4 acc).1, y ∈ pc.1.set :=
  View.cover_of_tiledL (stepLater c i a2 h2 a3 h3 a4 h4 a5 h5 a6 h6 a7 h7 hc x0 x1 x2 x3 x4 acc).1 S1x16x16.size (by sl_kernel_rfl) y

/-- What a later block leaves in the slab over the running sum `acc`: its pieces read back. -/
def slabLater (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : ¬atStart i) (x0 : Vec F S3x32768 .f32) (x1 : Vec F S32768x16 .f32) (x2 x3 x4 : Vec F S16x3 .f32) (acc : Vec F S1x16x16 .f32) : Vec F S1x16x16 .f32 :=
  slabView.read (Elt F) (slabView.writes (Elt F) slabView.junk (stepLater c i a2 h2 a3 h3 a4 h4 a5 h5 a6 h6 a7 h7 hc x0 x1 x2 x3 x4 acc).1)

/-! ## The running slab, block by block -/

/-- THE RECURSION. What the slab's staging buffer holds after the body at block `n`: at a first block of a half what
    that block leaves; at a later block what it leaves over the slab after block `n − 1`. -/
def slabAt (c : Dev nD) : (n : ℕ) → n < cfg0.N → Vec F S1x16x16 .f32
  | 0, hn => slabStart c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((atStart_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 32 = 0 then
      slabStart c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((atStart_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      slabLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => h0 ((atStart_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (slabAt c n (Nat.lt_of_succ_lt hn))

/-- At a first block. -/
theorem slabAt_start (c : Dev nD) (t : Fin cfg0.N) (h0 : t.val % 32 = 0) :
    slabAt m c t.val t.isLt = slabStart c (grid0.coords t) (ms0 t) (hs0 t) (ms1 t) (hs1 t) (ms2 t) (hs2 t) (ms3 t) (hs3 t) (ms4 t) (hs4 t) (ms5 t) (hs5 t) ((atStart_iff t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- At a later block: over what the block before left. -/
theorem slabAt_later (c : Dev nD) (t : Fin cfg0.N) (h0 : ¬t.val % 32 = 0) :
    slabAt m c t.val t.isLt = slabLater c (grid0.coords t) (ms0 t) (hs0 t) (ms1 t) (hs1 t) (ms2 t) (hs2 t) (ms3 t) (hs3 t) (ms4 t) (hs4 t) (ms5 t) (hs5 t) (fun h => h0 ((atStart_iff t).mp h)) (iblk m c 0 t) (iblk m c 1 t) (iblk m c 2 t) (iblk m c 3 t) (iblk m c 4 t) (slabAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the sweep finds them; after the body at point `t` every input's buffer still at its block and the
    slab's at `slabAt`; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => slabAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = slabAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-- At a later block the slab's buffer holds what the block before left: the point is not the first, and the slab was
    not written back in between (it is written back only after blocks 31 and 63). -/
theorem before5_later (c : Dev nD) (t : Fin cfg0.N) (h0 : ¬t.val % 32 = 0) (d) :
    (dats m 0 c).before 5 t d = slabAt m c (t.val - 1) (Nat.lt_of_le_of_lt (Nat.sub_le _ _) t.isLt) := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the closed form says whether the point is a first
    block; at a later block the slab's buffer holds what the block before left; so the matching run applies, and what it
    hands back is the proof data's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  have hN : t.val < 64 := lt_of_lt_of_eq t.isLt (show cfg0.N = 64 from N_0)
  by_cases h0 : t.val % 32 = 0
  · rw [slabAt_start m c t h0]
    unfold slabStart
    iintro ⟨HΦ, Ho, ⟨%d0, H0⟩, ⟨%d1, H1⟩, ⟨%d2, H2⟩, ⟨%d3, H3⟩, ⟨%d4, H4⟩, ⟨%d5, H5⟩⟩
    iapply ((stepStart c (grid0.coords t) _ _ _ _ _ _ _ _ _ _ _ _ ((atStart_iff t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverStart c _ _ _ _ _ _ _ _ _ _ _ _ _ _ _ _ _ _ _)
  · rw [slabAt_later m c t h0]
    simp only [before5_later m c t h0]
    unfold slabLater
    iintro ⟨HΦ, Ho, ⟨%d0, H0⟩, ⟨%d1, H1⟩, ⟨%d2, H2⟩, ⟨%d3, H3⟩, ⟨%d4, H4⟩, ⟨%d5, H5⟩⟩
    iapply ((stepLater c (grid0.coords t) _ _ _ _ _ _ _ _ _ _ _ _ (fun h => h0 ((atStart_iff t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, faults nowhere, and ends
    with each staged array at what the proof data computes (the result array: its two slabs as the halves' last blocks
    left them) and every other array as the two closing lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program runs and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Sweep

end
-- ==== Proof.Spec.lean ====
/-
  What the program computes, stated once, over plain functions of indices.

  A lattice point x = (x0, x1, x2) and a ray with direction d = (r0, r1, r2), origin o = (o0, o1, o2) and the three
  ray scalars od = o·d, oo = |o|², dd = |d|² give

      t  = d·x − od                      (the position along the ray)
      q  = |x|² − 2·(o·x) + oo           (the squared distance from the origin of the ray)
      ρ² = q − t·t·(2 − dd)              (the squared distance from the ray's line)
      w  = exp ((0 − ρ²)·2 − |t|·½)      (a Gaussian tube of width ½ around the line, decaying along it)

  and the result for ray b and channel ch is the sum over all 2097152 lattice points n of  w(b, n) · field(n, ch).
  The sums and products are those of the extended reals; 2 and ½ are kept as the float words the program spells.

  The sweep does not form that sum in one go: it cuts the points into 64 blocks of 32768, adds up each half's 32
  blocks into a running sum that restarts from zero at the half's first block, and finally adds the two halves to
  zero. `running` is that recursion over the block number and `blockSum` one block's share.
-/
import Idealize.ShloMosaic.PureOps.Ideal

noncomputable section

namespace Cert.Tube

open Idealize.ShloMosaic

/-- The float word of 2.0. -/
abbrev two : EReal := Ideal.ofBits .f32 0x40000000#32
/-- The float word of 0.5. -/
abbrev half : EReal := Ideal.ofBits .f32 0x3F000000#32

/-- The position of the point along the ray: d·x − o·d. -/
def along (x0 x1 x2 r0 r1 r2 od : EReal) : EReal := r0 * x0 + r1 * x1 + r2 * x2 - od

/-- The squared distance of the point from the ray's origin: |x|² − 2·(o·x) + |o|². -/
def dist2 (x0 x1 x2 o0 o1 o2 oo : EReal) : EReal :=
  x0 * x0 + x1 * x1 + x2 * x2 - two * (o0 * x0 + o1 * x1 + o2 * x2) + oo

/-- The weight of the point for the ray: exp ((0 − ρ²)·2 − |t|·½), with ρ² = q − t·t·(2 − |d|²). -/
def weight (x0 x1 x2 r0 r1 r2 o0 o1 o2 od oo dd : EReal) : EReal :=
  Ideal.exp ((0 - (dist2 x0 x1 x2 o0 o1 o2 oo
        - along x0 x1 x2 r0 r1 r2 od * along x0 x1 x2 r0 r1 r2 od * (two - dd))) * two
      - max (along x0 x1 x2 r0 r1 r2 od) (-(along x0 x1 x2 r0 r1 r2 od)) * half)

/-- The weight of lattice point `n` for ray `b`, from the flattened lattice, the two ray tables and the ray scalars. -/
def w (xs : Fin 2097152 → Fin 3 → EReal) (rd ro : Fin 16 → Fin 3 → EReal) (od oo dd : Fin 16 → EReal)
    (b : Fin 16) (n : Fin 2097152) : EReal :=
  weight (xs n 0) (xs n 1) (xs n 2) (rd b 0) (rd b 1) (rd b 2) (ro b 0) (ro b 1) (ro b 2) (od b) (oo b) (dd b)

/-- THE RESULT: for ray `b` and channel `ch`, the weighted sum of the field over the whole lattice. -/
def G (xs : Fin 2097152 → Fin 3 → EReal) (mems : Fin 2097152 → Fin 16 → EReal) (rd ro : Fin 16 → Fin 3 → EReal)
    (od oo dd : Fin 16 → EReal) (b ch : Fin 16) : EReal :=
  ∑ n : Fin 2097152, w xs rd ro od oo dd b n * mems n ch

/-! ## The blocked form -/

/-- A summand extended by zero past the last point. -/
def ext (f : Fin 2097152 → EReal) (n : ℕ) : EReal := if h : n < 2097152 then f ⟨n, h⟩ else 0

/-- Block `t`'s share of the sum: its 32768 consecutive points. -/
def blockSum (f : Fin 2097152 → EReal) (t : ℕ) : EReal := ∑ j : Fin 32768, ext f (t * 32768 + j.val)

/-- The running sum after block `t`: restarted from zero at the first block of a half (t ≡ 0 mod 32), else the
    running sum after the block before plus this block's share. -/
def running (f : Fin 2097152 → EReal) : ℕ → EReal
  | 0 => 0 + blockSum f 0
  | t + 1 => if (t + 1) % 32 = 0 then 0 + blockSum f (t + 1) else running f t + blockSum f (t + 1)

end Cert.Tube

end
-- ==== Proof.Readers.lean ====
/-
  How the four arguments are read by the specification: the lattice and the field flattened to 2097152 points (the
  row-major flattening both programs begin with), the two ray tables entry by entry, and the three scalars of a ray
  (o·d, |o|², |d|²) as the sums over the three coordinates that both programs form on the host before anything else.
-/
import proofs.«134575_j71803263255265_1_alg».proof.Proof.Spec
import Idealize.ShloMosaic.Lib.ValueIdx
import Idealize.ShloMosaic.PureOps

noncomputable section

namespace Cert.Tube

open Idealize.ShloMosaic Idealize.ShloMosaic.ValueIdx

/-- The lattice argument: 128×128×128 points of three coordinates. -/
abbrev SLat : Shape := ⟨4, ![128, 128, 128, 3]⟩
/-- The field argument: 128×128×128 points of sixteen channels. -/
abbrev SFld : Shape := ⟨4, ![128, 128, 128, 16]⟩
/-- A ray table: sixteen rays of three coordinates. -/
abbrev STab : Shape := ⟨2, ![16, 3]⟩

/-- Coordinate `k` of lattice point `n` of the flattened lattice. -/
def pts (grid : FVec Ideal SLat .f32) (n : Fin 2097152) (k : Fin 3) : EReal :=
  shapeCast (⟨2, ![2097152, 3]⟩ : Shape) grid (by decide) (ix2 n k)

/-- Channel `ch` of the field at lattice point `n` of the flattened lattice. -/
def fld (mem : FVec Ideal SFld .f32) (n : Fin 2097152) (ch : Fin 16) : EReal :=
  shapeCast (⟨2, ![2097152, 16]⟩ : Shape) mem (by decide) (ix2 n ch)

/-- Coordinate `k` of ray `b` in a ray table. -/
def tab (a : FVec Ideal STab .f32) (b : Fin 16) (k : Fin 3) : EReal := a (ix2 b k)

/-- The scalar product of ray `b`'s rows in two ray tables, as the host forms it: the entrywise product summed along
    the three coordinates onto zero. -/
def dot3 (a a' : FVec Ideal STab .f32) (b : Fin 16) : EReal :=
  Host.reduceAdd (F := Ideal) (mulf a a') (constant (⟨0, ![]⟩ : Shape) .f32 0x00000000#32)
    (by decide : STab.ReducesTo [1] (⟨1, ![16]⟩ : Shape)) (by decide : 0 < (⟨0, ![]⟩ : Shape).numel) (ix1 b)

/-- THE RESULT over the four arguments (`origin` and `dir` the two ray tables): ray `b`, channel `ch`. -/
def result (mem : FVec Ideal SFld .f32) (grid : FVec Ideal SLat .f32) (origin dir : FVec Ideal STab .f32) (b ch : Fin 16) : EReal :=
  G (pts grid) (fld mem) (tab dir) (tab origin) (dot3 origin dir) (dot3 origin origin) (dot3 dir dir) b ch

/-- The same as one 16×16 array. -/
def resultArr (mem : FVec Ideal SFld .f32) (grid : FVec Ideal SLat .f32) (origin dir : FVec Ideal STab .f32) :
    FVec Ideal (⟨2, ![16, 16]⟩ : Shape) .f32 :=
  fun i => result mem grid origin dir (i 0) (i 1)

theorem resultArr_apply (mem : FVec Ideal SFld .f32) (grid : FVec Ideal SLat .f32) (origin dir : FVec Ideal STab .f32) (b ch : Fin 16) :
    resultArr mem grid origin dir (ix2 b ch) = result mem grid origin dir b ch := rfl

end Cert.Tube

end
-- ==== Proof.LibNary3.lean ====
/-
  A host line of three operands (a concatenation of three pieces), read at its result with each operand's contents at
  its own reference, so that the contents of the operands can be rewritten in turn.
-/
import Idealize.ShloMosaic.Lib.StableHlo.Run

noncomputable section

namespace Idealize.ShloMosaic.StableHlo

variable {nD : Nat} {τ : Topo} {sig : RefSig} {Val : EltTy → Type}

/-- The result of an operation over a LITERAL family of three references, each operand's contents at its own
    reference: `Fin.cons (F ↑x) (Fin.cons (F ↑a) (Fin.cons (F ↑b) _))` in place of `fun k => F ↑(![x, a, b] k)`, under
    whose binder the reference is no literal. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.Ideal.BlockReads.lean ====
/-
  The five input blocks of a grid point, entry by entry, in terms of the four arguments.

  Block t of the lattice rows holds coordinate k of lattice point 32768·t + j at (k, j): the rows are the transpose of
  the flattened lattice, and the block is columns 32768·t … 32768·t + 32767. Block t of the field holds the field at
  point 32768·t + j, channel ch, at (j, ch). The two ray tables are staged whole, so their block is the table. The
  table of ray scalars holds, for ray b, o·d, |o|² and |d|² in its three columns: three sums along the coordinates,
  each made a column, glued side by side.
-/
import proofs.«134575_j71803263255265_1_alg».proof.Proof.Ideal.Sweep
import proofs.«134575_j71803263255265_1_alg».proof.Proof.Readers
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import proofs.«134575_j71803263255265_1_alg».proof.Proof.LibNary3

set_option maxRecDepth 16384

noncomputable section

namespace Cert.KernelIdeal.Sweep

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The lattice point at place `j` of block `t`: 32768·t + j. -/
def pt (t : Fin cfg0.N) (j : Fin 32768) : Fin 2097152 :=
  ⟨t.val * 32768 + j.val, by have h := lt_of_lt_of_eq t.isLt (show cfg0.N = 64 from N_0); have := j.isLt; omega⟩

/-- The four arguments as launched, at their literal types. -/
abbrev fieldArg (c : Dev nD) : FVec Ideal Tube.SFld .f32 := m ((c.tc : Thread nD τ).loc main_arg0)
abbrev latticeArg (c : Dev nD) : FVec Ideal Tube.SLat .f32 := m ((c.tc : Thread nD τ).loc main_arg1)
abbrev originArg (c : Dev nD) : FVec Ideal Tube.STab .f32 := m ((c.tc : Thread nD τ).loc main_arg2)
abbrev dirArg (c : Dev nD) : FVec Ideal Tube.STab .f32 := m ((c.tc : Thread nD τ).loc main_arg3)

/-- The five input blocks of point `t`, at their literal types. -/
abbrev latBlk (c : Dev nD) (t : Fin cfg0.N) : Vec Ideal S3x32768 .f32 := iblk m c 0 t
abbrev fldBlk (c : Dev nD) (t : Fin cfg0.N) : Vec Ideal S32768x16 .f32 := iblk m c 1 t
abbrev dirBlk (c : Dev nD) (t : Fin cfg0.N) : Vec Ideal S16x3 .f32 := iblk m c 2 t
abbrev orgBlk (c : Dev nD) (t : Fin cfg0.N) : Vec Ideal S16x3 .f32 := iblk m c 3 t
abbrev sclBlk (c : Dev nD) (t : Fin cfg0.N) : Vec Ideal S16x3 .f32 := iblk m c 4 t

/-! ## Where each window's block sits, decided once over the 64 grid points -/

/-- The lattice rows' block at point `t` is all three rows, column block `t`. -/
theorem idx_lat : ∀ t : Fin cfg0.N, win0_0.index t (0 : Fin 2) = 0 ∧ win0_0.index t (1 : Fin 2) = t.val :=
  (by decide +kernel : ∀ t : Fin grid0.N, _)
/-- The field's block at point `t` is row block `t`, all sixteen channels. -/
theorem idx_fld : ∀ t : Fin cfg0.N, win0_1.index t (0 : Fin 2) = t.val ∧ win0_1.index t (1 : Fin 2) = 0 :=
  (by decide +kernel : ∀ t : Fin grid0.N, _)
/-- The three ray tables are staged whole at every point. -/
theorem idx_dir : ∀ t : Fin cfg0.N, win0_2.index t (0 : Fin 2) = 0 ∧ win0_2.index t (1 : Fin 2) = 0 :=
  (by decide +kernel : ∀ t : Fin grid0.N, _)
theorem idx_org : ∀ t : Fin cfg0.N, win0_3.index t (0 : Fin 2) = 0 ∧ win0_3.index t (1 : Fin 2) = 0 :=
  (by decide +kernel : ∀ t : Fin grid0.N, _)
theorem idx_scl : ∀ t : Fin cfg0.N, win0_4.index t (0 : Fin 2) = 0 ∧ win0_4.index t (1 : Fin 2) = 0 :=
  (by decide +kernel : ∀ t : Fin grid0.N, _)

/-! ## The staged arrays when the sweep starts, as operations of the arguments -/

/-- The lattice rows: the transpose of the flattened lattice. -/
theorem V_main_v2 (c : Dev nD) : (V m c main_v2 : S3x2097152.Idx → EReal) =
    transpose S3x2097152 [1, 0] (shapeCast S2097152x3 (latticeArg m c) shapeCasts_S128x128x128x3_S2097152x3)
      transposes_S2097152x3_S3x2097152_1_0 := by
  show StableHlo.after hostOps0 (fun b => m (c, b)) (Proc.devRef .tc main_v2) = _
  after_results
  rfl

/-- The field rows: the flattened field. -/
theorem V_main_v0 (c : Dev nD) : (V m c main_v0 : S2097152x16.Idx → EReal) =
    shapeCast S2097152x16 (fieldArg m c) shapeCasts_S128x128x128x16_S2097152x16 := by
  show StableHlo.after hostOps0 (fun b => m (c, b)) (Proc.devRef .tc main_v0) = _
  after_results
  rfl

/-! ## The blocks, entry by entry -/

theorem latBlk_apply (c : Dev nD) (t : Fin cfg0.N) (k : Fin 3) (j : Fin 32768) :
    latBlk m c t (ix2 k j) = Tube.pts (latticeArg m c) (pt t j) k := by
  obtain ⟨e0, e1⟩ := idx_lat t
  have hemb : (((cfg0.win 0).blk t).view.emb (ix2 k j) : S3x2097152.Idx) = ix2 k (pt t j) := by
    funext a; apply Fin.ext
    match a with
    | ⟨0, _⟩ => show win0_0.index t (0 : Fin 2) * 3 + 1 * k.val = k.val; omega
    | ⟨1, _⟩ => show win0_0.index t (1 : Fin 2) * 32768 + 1 * j.val = t.val * 32768 + j.val; omega
  show (V m c main_v2 : S3x2097152.Idx → EReal) (((cfg0.win 0).blk t).view.emb (ix2 k j)) = _
  rw [hemb, V_main_v2]
  exact transpose_apply _ _ _ _ (ix2 (pt t j) k) (fun b => by
    match b with
    | ⟨0, _⟩ => rfl
    | ⟨1, _⟩ => rfl)

theorem fldBlk_apply (c : Dev nD) (t : Fin cfg0.N) (j : Fin 32768) (ch : Fin 16) :
    fldBlk m c t (ix2 j ch) = Tube.fld (fieldArg m c) (pt t j) ch := by
  obtain ⟨e0, e1⟩ := idx_fld t
  have hemb : (((cfg0.win 1).blk t).view.emb (ix2 j ch) : S2097152x16.Idx) = ix2 (pt t j) ch := by
    funext a; apply Fin.ext
    match a with
    | ⟨0, _⟩ => show win0_1.index t (0 : Fin 2) * 32768 + 1 * j.val = t.val * 32768 + j.val; omega
    | ⟨1, _⟩ => show win0_1.index t (1 : Fin 2) * 16 + 1 * ch.val = ch.val; omega
  show (V m c main_v0 : S2097152x16.Idx → EReal) (((cfg0.win 1).blk t).view.emb (ix2 j ch)) = _
  rw [hemb, V_main_v0]
  rfl

theorem dirBlk_apply (c : Dev nD) (t : Fin cfg0.N) (b : Fin 16) (k : Fin 3) :
    dirBlk m c t (ix2 b k) = Tube.tab (dirArg m c) b k := by
  obtain ⟨e0, e1⟩ := idx_dir t
  have hemb : (((cfg0.win 2).blk t).view.emb (ix2 b k) : S16x3.Idx) = ix2 b k := by
    funext a; apply Fin.ext
    match a with
    | ⟨0, _⟩ => show win0_2.index t (0 : Fin 2) * 16 + 1 * b.val = b.val; omega
    | ⟨1, _⟩ => show win0_2.index t (1 : Fin 2) * 3 + 1 * k.val = k.val; omega
  show (V m c main_arg3 : S16x3.Idx → EReal) (((cfg0.win 2).blk t).view.emb (ix2 b k)) = _
  rw [hemb, V_main_arg3]
  rfl

theorem orgBlk_apply (c : Dev nD) (t : Fin cfg0.N) (b : Fin 16) (k : Fin 3) :
    orgBlk m c t (ix2 b k) = Tube.tab (originArg m c) b k := by
  obtain ⟨e0, e1⟩ := idx_org t
  have hemb : (((cfg0.win 3).blk t).view.emb (ix2 b k) : S16x3.Idx) = ix2 b k := by
    funext a; apply Fin.ext
    match a with
    | ⟨0, _⟩ => show win0_3.index t (0 : Fin 2) * 16 + 1 * b.val = b.val; omega
    | ⟨1, _⟩ => show win0_3.index t (1 : Fin 2) * 3 + 1 * k.val = k.val; omega
  show (V m c main_arg2 : S16x3.Idx → EReal) (((cfg0.win 3).blk t).view.emb (ix2 b k)) = _
  rw [hemb, V_main_arg2]
  rfl

/-- The table of ray scalars: three sums along the coordinates, each made a column, glued side by side. -/
theorem V_main_v12 (c : Dev nD) : (V m c main_v12 : S16x3.Idx → EReal) =
    concatenate S16x3 1
      [⟨S16x1, broadcastInDim S16x1 ![0] bcast_S16_S16x1_0
          (Host.reduceAdd (F := Ideal) (mulf (originArg m c) (dirArg m c)) (constant (F := Ideal) S_ .f32 0x00000000#32) reducesTo_S16x3_S16_d1 h_S_)⟩,
       ⟨S16x1, broadcastInDim S16x1 ![0] bcast_S16_S16x1_0
          (Host.reduceAdd (F := Ideal) (mulf (originArg m c) (originArg m c)) (constant (F := Ideal) S_ .f32 0x00000000#32) reducesTo_S16x3_S16_d1 h_S_)⟩,
       ⟨S16x1, broadcastInDim S16x1 ![0] bcast_S16_S16x1_0
          (Host.reduceAdd (F := Ideal) (mulf (dirArg m c) (dirArg m c)) (constant (F := Ideal) S_ .f32 0x00000000#32) reducesTo_S16x3_S16_d1 h_S_)⟩]
      concatenates_S16x1_S16x1_S16x1_S16x3_d1 := by
  show StableHlo.after hostOps0 (fun b => m (c, b)) (Proc.devRef .tc main_v12) = _
  simp only [StableHlo.after_cons, StableHlo.after_nil]
  rw [StableHlo.nary3_result]
  repeat (first
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

/-! ## Three columns glued side by side, read at a column; a column made of a vector, read at a row -/

theorem cat3_apply_0 (x0 x1 x2 : S16x1.Idx → EReal) (b : Fin 16) :
    concatenate S16x3 1 [⟨S16x1, x0⟩, ⟨S16x1, x1⟩, ⟨S16x1, x2⟩] concatenates_S16x1_S16x1_S16x1_S16x3_d1 (ix2 b (0 : Fin 3))
      = x0 (ix2 b (0 : Fin 1)) :=
  concatenate_apply_piece (1 : Fin S16x3.rank) [⟨S16x1, x0⟩, ⟨S16x1, x1⟩, ⟨S16x1, x2⟩] concatenates_S16x1_S16x1_S16x1_S16x3_d1 (ix2 b (0 : Fin 3)) 0 (by simp) S16x1 x0 rfl rfl 0 rfl (ix2 b (0 : Fin 1))
    (fun b' => match b' with
      | ⟨0, _⟩ => fun _ => rfl
      | ⟨1, _⟩ => fun h => absurd rfl h) rfl

theorem cat3_apply_1 (x0 x1 x2 : S16x1.Idx → EReal) (b : Fin 16) :
    concatenate S16x3 1 [⟨S16x1, x0⟩, ⟨S16x1, x1⟩, ⟨S16x1, x2⟩] concatenates_S16x1_S16x1_S16x1_S16x3_d1 (ix2 b (1 : Fin 3))
      = x1 (ix2 b (0 : Fin 1)) :=
  concatenate_apply_piece (1 : Fin S16x3.rank) [⟨S16x1, x0⟩, ⟨S16x1, x1⟩, ⟨S16x1, x2⟩] concatenates_S16x1_S16x1_S16x1_S16x3_d1 (ix2 b (1 : Fin 3)) 1 (by simp) S16x1 x1 rfl rfl 1 rfl (ix2 b (0 : Fin 1))
    (fun b' => match b' with
      | ⟨0, _⟩ => fun _ => rfl
      | ⟨1, _⟩ => fun h => absurd rfl h) rfl

theorem cat3_apply_2 (x0 x1 x2 : S16x1.Idx → EReal) (b : Fin 16) :
    concatenate S16x3 1 [⟨S16x1, x0⟩, ⟨S16x1, x1⟩, ⟨S16x1, x2⟩] concatenates_S16x1_S16x1_S16x1_S16x3_d1 (ix2 b (2 : Fin 3))
      = x2 (ix2 b (0 : Fin 1)) :=
  concatenate_apply_piece (1 : Fin S16x3.rank) [⟨S16x1, x0⟩, ⟨S16x1, x1⟩, ⟨S16x1, x2⟩] concatenates_S16x1_S16x1_S16x1_S16x3_d1 (ix2 b (2 : Fin 3)) 2 (by simp) S16x1 x2 rfl rfl 2 rfl (ix2 b (0 : Fin 1))
    (fun b' => match b' with
      | ⟨0, _⟩ => fun _ => rfl
      | ⟨1, _⟩ => fun h => absurd rfl h) rfl

theorem col_apply (x : S16.Idx → EReal) (b : Fin 16) :
    broadcastInDim S16x1 ![0] bcast_S16_S16x1_0 x (ix2 b (0 : Fin 1)) = x (ix1 b) :=
  broadcastInDim_apply _ _ x _ (ix1 b) (fun a => match a with
    | ⟨0, _⟩ => rfl)

/-- The table's block is the table. -/
theorem sclBlk_eq (c : Dev nD) (t : Fin cfg0.N) (b : Fin 16) (k : Fin 3) :
    sclBlk m c t (ix2 b k) = (V m c main_v12 : S16x3.Idx → EReal) (ix2 b k) := by
  obtain ⟨e0, e1⟩ := idx_scl t
  have hemb : (((cfg0.win 4).blk t).view.emb (ix2 b k) : S16x3.Idx) = ix2 b k := by
    funext a; apply Fin.ext
    match a with
    | ⟨0, _⟩ => show win0_4.index t (0 : Fin 2) * 16 + 1 * b.val = b.val; omega
    | ⟨1, _⟩ => show win0_4.index t (1 : Fin 2) * 3 + 1 * k.val = k.val; omega
  show (V m c main_v12 : S16x3.Idx → EReal) (((cfg0.win 4).blk t).view.emb (ix2 b k)) = _
  rw [hemb]

theorem sclBlk_apply_0 (c : Dev nD) (t : Fin cfg0.N) (b : Fin 16) :
    sclBlk m c t (ix2 b 0) = Tube.dot3 (originArg m c) (dirArg m c) b := by
  rw [sclBlk_eq, V_main_v12, cat3_apply_0, col_apply]
  rfl

theorem sclBlk_apply_1 (c : Dev nD) (t : Fin cfg0.N) (b : Fin 16) :
    sclBlk m c t (ix2 b 1) = Tube.dot3 (originArg m c) (originArg m c) b := by
  rw [sclBlk_eq, V_main_v12, cat3_apply_1, col_apply]
  rfl

theorem sclBlk_apply_2 (c : Dev nD) (t : Fin cfg0.N) (b : Fin 16) :
    sclBlk m c t (ix2 b 2) = Tube.dot3 (dirArg m c) (dirArg m c) b := by
  rw [sclBlk_eq, V_main_v12, cat3_apply_2, col_apply]
  rfl

end Cert.KernelIdeal.Sweep

end
-- ==== Proof.Ideal.BodyMath.lean ====
/-
  What one run of the body leaves in the result slab, entry by entry.

  For ray b and channel ch the block's contribution is the sum over the block's 32768 points j of the point's weight
  for the ray times the field at the point: the weights are formed pointwise from the three lattice rows, the ray's
  direction and origin and its three scalars; the contraction over j is the matrix product of the 16×32768 weights
  with the 32768×16 field block onto zero. At a first block the slab was cleared, so it ends at 0 + contribution; at a
  later block it ends at the running sum + contribution. (Changes of float format are the identity here.)
-/
import proofs.«134575_j71803263255265_1_alg».proof.Proof.Ideal.Sweep
import proofs.«134575_j71803263255265_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Sweep

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The stores' payloads, as one function of the five input blocks and of what the slab held -/

section Pieces

variable {F : FTy → Type} [FloatOps F]

/-- The store's offset, all zeros, is the zero function. -/
theorem hz2 : (![0, 0] : Fin 2 → Nat) = fun _ => 0 := funext fun a => by fin_cases a <;> rfl

/-- The same for the slab's store. -/
theorem hz3 : (![0, 0, 0] : Fin 3 → Nat) = fun _ => 0 := funext fun a => by fin_cases a <;> rfl

/-- The sum the body stores: the slab's previous contents `s` plus the matrix product of the block's weights with the
    field block, the weights formed from the three rows of `x0`, the columns of the ray tables `x2`, `x3` and of the
    scalars' table `x4`. -/
def bodyPay (x0 : Vec F S3x32768 .f32) (x1 : Vec F S32768x16 .f32) (x2 x3 x4 : Vec F S16x3 .f32) (s : Vec F S1x16x16 .f32) :
    FVec F S16x16 .f32 :=
  k0_pay11
    (k0_pay3 (View.ld x0 (Rect.unit ![0, 0] S1x32768.size inb_S3x32768_S1x32768_0_0)))
    (k0_pay4 (View.ld x0 (Rect.unit ![1, 0] S1x32768.size inb_S3x32768_S1x32768_1_0)))
    (k0_pay5 (View.ld x0 (Rect.unit ![2, 0] S1x32768.size inb_S3x32768_S1x32768_2_0)))
    (View.ld x3 (Rect.unit ![0, 0] S16x1.size inb_S16x3_S16x1_0_0))
    (View.ld x3 (Rect.unit ![0, 1] S16x1.size inb_S16x3_S16x1_0_1))
    (View.ld x3 (Rect.unit ![0, 2] S16x1.size inb_S16x3_S16x1_0_2))
    (k0_pay6 (View.ld x4 (Rect.unit ![0, 0] S16x1.size inb_S16x3_S16x1_0_0)))
    (k0_pay7 (View.ld x4 (Rect.unit ![0, 1] S16x1.size inb_S16x3_S16x1_0_1)))
    (k0_pay8 (View.ld x4 (Rect.unit ![0, 2] S16x1.size inb_S16x3_S16x1_0_2)))
    (k0_pay9 (View.ld x0 (Rect.unit ![0, 0] S1x32768.size inb_S3x32768_S1x32768_0_0))
      (View.ld x0 (Rect.unit ![1, 0] S1x32768.size inb_S3x32768_S1x32768_1_0))
      (View.ld x2 (Rect.unit ![0, 0] S16x1.size inb_S16x3_S16x1_0_0))
      (View.ld x2 (Rect.unit ![0, 1] S16x1.size inb_S16x3_S16x1_0_1)))
    (k0_pay10 (View.ld x0 (Rect.unit ![2, 0] S1x32768.size inb_S3x32768_S1x32768_2_0))
      (View.ld x2 (Rect.unit ![0, 2] S16x1.size inb_S16x3_S16x1_0_2)))
    x1 s

/-- At a later block the slab ends holding the sum over the running sum it held. -/
theorem slabLater_eq (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : ¬atStart i) (x0 : Vec F S3x32768 .f32) (x1 : Vec F S32768x16 .f32) (x2 x3 x4 : Vec F S16x3 .f32)
    (acc : Vec F S1x16x16 .f32) :
    slabLater (F := F) c i a2 h2 a3 h3 a4 h4 a5 h5 a6 h6 a7 h7 hc x0 x1 x2 x3 x4 acc
      = k0_pay1 (bodyPay x0 x1 x2 x3 x4 acc) := by
  unfold slabLater
  rw [View.read_writes_eq_canon _ _ _ (coverLater c i a2 h2 a3 h3 a4 h4 a5 h5 a6 h6 a7 h7 hc x0 x1 x2 x3 x4 acc)]
  unfold stepLater
  dsimp only
  sl_unfold_words
  rw [View.canon_unit_zero hz3]
  unfold bodyPay
  simp only [View.readAt_eq_ld, h2.read_unread, h3.read_unread, h4.read_unread, h5.read_unread, h6.read_unread, h7.read_unread,
    View.ld_unit_zero (S := S1x16x16) hz3, View.ld_unit_zero (S := S32768x16) hz2]

/-- At a first block the slab ends holding the sum over the cleared slab. -/
theorem slabStart_eq (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : atStart i) (x0 : Vec F S3x32768 .f32) (x1 : Vec F S32768x16 .f32) (x2 x3 x4 : Vec F S16x3 .f32) :
    slabStart (F := F) c i a2 h2 a3 h3 a4 h4 a5 h5 a6 h6 a7 h7 hc x0 x1 x2 x3 x4
      = k0_pay1 (bodyPay x0 x1 x2 x3 x4 k0_pay2) := by
  unfold slabStart
  rw [View.read_writes_eq_canon _ _ _ (coverStart c i a2 h2 a3 h3 a4 h4 a5 h5 a6 h6 a7 h7 hc x0 x1 x2 x3 x4)]
  unfold stepStart
  dsimp only
  sl_unfold_words
  rw [View.canon_cons_unit_zero (S := S1x16x16) hz3, View.readCov_unit_zero (S := S1x16x16) _ hz3]
  unfold bodyPay
  simp only [View.readAt_eq_ld, h2.read_unread, h3.read_unread, h4.read_unread, h5.read_unread, h6.read_unread,
    View.ld_unit_zero (S := S32768x16) hz2]

end Pieces

/-! ## The payloads read at an index, at the ideal values -/

section AtIndex

/-- A load through a unit-stride rectangle of a rank-2 buffer reads the buffer at the index shifted by the offsets. -/
theorem ld_ix2 {Val : EltTy → Type} {e : EltTy} {n0 n1 m0 m1 : ℕ} (x : (⟨2, ![n0, n1]⟩ : Shape).Idx → Val e) (off : Fin 2 → ℕ)
    (inb : ∀ a, off a + (⟨2, ![m0, m1]⟩ : Shape).size a ≤ (⟨2, ![n0, n1]⟩ : Shape).size a)
    (p : Fin m0) (q : Fin m1) (p' : Fin n0) (q' : Fin n1) (hp : p'.val = off 0 + p.val) (hq : q'.val = off 1 + q.val) :
    View.ld x (Rect.unit off (⟨2, ![m0, m1]⟩ : Shape).size inb) (ix2 p q) = x (ix2 p' q') :=
  congrArg x (funext fun a => Fin.ext (match a with
    | ⟨0, _⟩ => by show off 0 + 1 * p.val = p'.val; omega
    | ⟨1, _⟩ => by show off 1 + 1 * q.val = q'.val; omega))

/-- A 16×1 column spread along the points reads, at ray `b` and any point, the column's entry for the ray. -/
theorem bcCol {α : Type} (v : S16x1.Idx → α) (b : Fin 16) (j : Fin 32768) :
    broadcastTo S16x32768 v broadcasts_S16x1_S16x32768 (ix2 b j) = v (ix2 b 0) :=
  broadcastTo_apply v _ _ _ fun a => match a with | ⟨0, _⟩ => rfl | ⟨1, _⟩ => rfl

/-- A 1×32768 row spread along the rays reads, at any ray and point `j`, the row's entry for the point. -/
theorem bcRow {α : Type} (v : S1x32768.Idx → α) (b : Fin 16) (j : Fin 32768) :
    broadcastTo S16x32768 v broadcasts_S1x32768_S16x32768 (ix2 b j) = v (ix2 0 j) :=
  broadcastTo_apply v _ _ _ fun a => match a with | ⟨0, _⟩ => rfl | ⟨1, _⟩ => rfl

/-- An absolute value at an index is the larger of the element and its negation. -/
theorem absf_ap {s : Shape} {φ : FTy} (a : FVec Ideal s φ) (i : s.Idx) : Idealize.ShloMosaic.absf a i = max (a i) (-(a i)) := rfl
/-- An exponential at an index is the element's. -/
theorem exp_ap {s : Shape} {φ : FTy} (a : FVec Ideal s φ) (i : s.Idx) : Idealize.ShloMosaic.exp a i = Ideal.exp (a i) := rfl
/-- The float word of zero is the extended real zero. -/
theorem zero_word : (FloatOps.ofBits .f32 0x00000000#32 : Ideal .f32) = 0 := Ideal.ofBits_zero_f32

/-- The weight as the body forms it at one point and ray: `p` the point, `o` the ray's origin, `od`, `oo`, `dd` the
    ray's three scalars, and `a + b` the scalar product d·x, which the body receives in two parts. -/
def wgt (p0 p1 p2 o0 o1 o2 od oo dd a b : EReal) : EReal :=
  Ideal.exp ((0 - (p0 * p0 + p1 * p1 + p2 * p2 - Tube.two * (o0 * p0 + o1 * p1 + o2 * p2) + oo
      - (a + b - od) * (a + b - od) * (Tube.two - dd))) * Tube.two - max (a + b - od) (-(a + b - od)) * Tube.half)

/-- Equal entries give equal weights. -/
theorem wgt_congr {p0 p1 p2 o0 o1 o2 od oo dd a b p0' p1' p2' o0' o1' o2' od' oo' dd' a' b' : EReal}
    (h0 : p0 = p0') (h1 : p1 = p1') (h2 : p2 = p2') (h3 : o0 = o0') (h4 : o1 = o1') (h5 : o2 = o2') (h6 : od = od') (h7 : oo = oo')
    (h8 : dd = dd') (h9 : a = a') (h10 : b = b') :
    wgt p0 p1 p2 o0 o1 o2 od oo dd a b = wgt p0' p1' p2' o0' o1' o2' od' oo' dd' a' b' := by
  subst h0 h1 h2 h3 h4 h5 h6 h7 h8 h9 h10; rfl

/-! The matrix product's operand indices, axis by axis: at output (b, ch) and contraction coordinate k the weights are
    read at (b, k) and the field at (k, ch). -/

theorem lhs11_0 (i : S16x16.Idx) (q : dot_S16x32768_S32768x16_S16x16_1_0_0_1_n_n.contr.Idx) :
    (dot_S16x32768_S32768x16_S16x16_1_0_0_1_n_n.lhsIdx i q 0).val = (i 0).val := by
  unfold DotDims.lhsIdx
  rw [dif_neg (show ¬(0 : Fin S16x32768.rank) ∈ dot_S16x32768_S32768x16_S16x16_1_0_0_1_n_n.lhsBatch by decide),
    dif_pos (show (0 : Fin S16x32768.rank) ∈ dot_S16x32768_S32768x16_S16x16_1_0_0_1_n_n.lhsNonContracting by decide)]
  rfl
theorem lhs11_1 (i : S16x16.Idx) (q : dot_S16x32768_S32768x16_S16x16_1_0_0_1_n_n.contr.Idx) :
    (dot_S16x32768_S32768x16_S16x16_1_0_0_1_n_n.lhsIdx i q 1).val = (q ⟨0, by decide⟩).val :=
  dot_S16x32768_S32768x16_S16x16_1_0_0_1_n_n.lhsIdx_val_of_single rfl i q
theorem rhs11_0 (i : S16x16.Idx) (q : dot_S16x32768_S32768x16_S16x16_1_0_0_1_n_n.contr.Idx) :
    (dot_S16x32768_S32768x16_S16x16_1_0_0_1_n_n.rhsIdx i q 0).val = (q ⟨0, by decide⟩).val :=
  dot_S16x32768_S32768x16_S16x16_1_0_0_1_n_n.rhsIdx_val_of_single rfl i q
theorem rhs11_1 (i : S16x16.Idx) (q : dot_S16x32768_S32768x16_S16x16_1_0_0_1_n_n.contr.Idx) :
    (dot_S16x32768_S32768x16_S16x16_1_0_0_1_n_n.rhsIdx i q 1).val = (i 1).val := by
  unfold DotDims.rhsIdx
  rw [dif_neg (show ¬(1 : Fin S32768x16.rank) ∈ dot_S16x32768_S32768x16_S16x16_1_0_0_1_n_n.rhsBatch by decide),
    dif_pos (show (1 : Fin S32768x16.rank) ∈ dot_S16x32768_S32768x16_S16x16_1_0_0_1_n_n.rhsNonContracting by decide)]
  rfl

/-- The sum the body stores, at ray `b` and channel `ch`: what the slab held there plus, over the block's points, the
    weight times the field. -/
theorem pay11_apply (v4 v6 v8 : FVec Ideal S1x32768 .f32) (v12 v13 v14 : Vec Ideal S16x1 .f32) (v16 v18 v20 : FVec Ideal S16x1 .f32)
    (v27 v30 : FVec Ideal S16x32768 .f32) (v72 : Vec Ideal S32768x16 .f32) (v76 : Vec Ideal S1x16x16 .f32) (b ch : Fin 16) :
    k0_pay11 v4 v6 v8 v12 v13 v14 v16 v18 v20 v27 v30 v72 v76 (ix2 b ch)
      = v76 (ix3 0 b ch) + ∑ j : Fin 32768, wgt (v4 (ix2 0 j)) (v6 (ix2 0 j)) (v8 (ix2 0 j)) (v12 (ix2 b 0)) (v13 (ix2 b 0)) (v14 (ix2 b 0))
          (v16 (ix2 b 0)) (v18 (ix2 b 0)) (v20 (ix2 b 0)) (v27 (ix2 b j)) (v30 (ix2 b j)) * v72 (ix2 j ch) := by
  unfold k0_pay11
  refine (addf_apply _ _ _).trans ?_
  refine congrArg₂ (· + ·) (shapeCast_1ab_ab_apply v76 _ b ch) ?_
  refine (Ideal.matmul_constant_zero_apply dot_S16x32768_S32768x16_S16x16_1_0_0_1_n_n none _ _ (ix2 b ch)).trans ?_
  refine (Equiv.sum_comp (contrEquiv1 dot_S16x32768_S32768x16_S16x16_1_0_0_1_n_n 32768 rfl rfl).symm _).symm.trans ?_
  refine Finset.sum_congr rfl fun k _ => ?_
  have hk := contrEquiv1_symm_val dot_S16x32768_S32768x16_S16x16_1_0_0_1_n_n 32768 rfl rfl k
  have el : dot_S16x32768_S32768x16_S16x16_1_0_0_1_n_n.lhsIdx (ix2 b ch) ((contrEquiv1 dot_S16x32768_S32768x16_S16x16_1_0_0_1_n_n 32768 rfl rfl).symm k) = ix2 b k :=
    funext fun a => Fin.ext (by
      match a with
      | ⟨0, _⟩ => exact lhs11_0 _ _
      | ⟨1, _⟩ => exact (lhs11_1 _ _).trans hk)
  have er : dot_S16x32768_S32768x16_S16x16_1_0_0_1_n_n.rhsIdx (ix2 b ch) ((contrEquiv1 dot_S16x32768_S32768x16_S16x16_1_0_0_1_n_n 32768 rfl rfl).symm k) = ix2 k ch :=
    funext fun a => Fin.ext (by
      match a with
      | ⟨0, _⟩ => exact (rhs11_0 _ _).trans hk
      | ⟨1, _⟩ => exact rhs11_1 _ _)
  rw [el, er]
  refine congrArg₂ (· * ·) ?_ ?_
  · simp only [truncf_apply, exp_ap, subf_apply, mulf_apply, addf_apply, absf_ap, broadcast_apply, bcCol, bcRow, zero_word]
    rfl
  · show shapeCast S32768x16 v72 shapeCasts_S32768x16_S32768x16 (ix2 k ch) = v72 (ix2 k ch)
    rw [shapeCast_self]

/-- The first part of d·x the body forms ahead: the first two coordinates' products. -/
theorem pay9_apply (v3 v5 : Vec Ideal S1x32768 .f32) (v9 v10 : Vec Ideal S16x1 .f32) (b : Fin 16) (j : Fin 32768) :
    k0_pay9 v3 v5 v9 v10 (ix2 b j) = v9 (ix2 b 0) * v3 (ix2 0 j) + v10 (ix2 b 0) * v5 (ix2 0 j) := by
  unfold k0_pay9 k0_pay3 k0_pay4
  simp only [addf_apply, mulf_apply, bcCol, bcRow, shapeCast_self]

/-- The second part: the third coordinates' product. -/
theorem pay10_apply (v7 : Vec Ideal S1x32768 .f32) (v11 : Vec Ideal S16x1 .f32) (b : Fin 16) (j : Fin 32768) :
    k0_pay10 v7 v11 (ix2 b j) = v11 (ix2 b 0) * v7 (ix2 0 j) := by
  unfold k0_pay10 k0_pay5
  simp only [mulf_apply, bcCol, bcRow, shapeCast_self]

section AnyF
variable {F : FTy → Type} [FloatOps F]

/-- The casts of a loaded row or column to its own shape change nothing. -/
theorem pay3_eq (v : Vec F S1x32768 .f32) : k0_pay3 v = v := by unfold k0_pay3; exact shapeCast_self _ _
theorem pay4_eq (v : Vec F S1x32768 .f32) : k0_pay4 v = v := by unfold k0_pay4; exact shapeCast_self _ _
theorem pay5_eq (v : Vec F S1x32768 .f32) : k0_pay5 v = v := by unfold k0_pay5; exact shapeCast_self _ _
theorem pay6_eq (v : Vec F S16x1 .f32) : k0_pay6 v = v := by unfold k0_pay6; exact shapeCast_self _ _
theorem pay7_eq (v : Vec F S16x1 .f32) : k0_pay7 v = v := by unfold k0_pay7; exact shapeCast_self _ _
theorem pay8_eq (v : Vec F S16x1 .f32) : k0_pay8 v = v := by unfold k0_pay8; exact shapeCast_self _ _

/-- The stored 1×16×16 value at (0, b, ch) is the 16×16 sum at (b, ch). -/
theorem pay1_apply (v : FVec F S16x16 .f32) (u : Fin 1) (b ch : Fin 16) : k0_pay1 v (ix3 u b ch) = v (ix2 b ch) := by
  unfold k0_pay1; exact shapeCast_ab_1ab_apply v _ u b ch

/-- Row `k` of the lattice block, loaded as a 1×32768 vector, reads the block's row. -/
theorem row0 (x : Vec F S3x32768 .f32) (j : Fin 32768) :
    View.ld x (Rect.unit ![0, 0] S1x32768.size inb_S3x32768_S1x32768_0_0) (ix2 0 j) = x (ix2 0 j) :=
  ld_ix2 (Val := Elt F) x ![0, 0] inb_S3x32768_S1x32768_0_0 0 j 0 j rfl (Nat.zero_add _).symm
theorem row1 (x : Vec F S3x32768 .f32) (j : Fin 32768) :
    View.ld x (Rect.unit ![1, 0] S1x32768.size inb_S3x32768_S1x32768_1_0) (ix2 0 j) = x (ix2 1 j) :=
  ld_ix2 (Val := Elt F) x ![1, 0] inb_S3x32768_S1x32768_1_0 0 j 1 j rfl (Nat.zero_add _).symm
theorem row2 (x : Vec F S3x32768 .f32) (j : Fin 32768) :
    View.ld x (Rect.unit ![2, 0] S1x32768.size inb_S3x32768_S1x32768_2_0) (ix2 0 j) = x (ix2 2 j) :=
  ld_ix2 (Val := Elt F) x ![2, 0] inb_S3x32768_S1x32768_2_0 0 j 2 j rfl (Nat.zero_add _).symm

/-- Column `k` of a 16×3 table, loaded as a 16×1 vector, reads the table's column. -/
theorem col0 (x : Vec F S16x3 .f32) (b : Fin 16) :
    View.ld x (Rect.unit ![0, 0] S16x1.size inb_S16x3_S16x1_0_0) (ix2 b 0) = x (ix2 b 0) :=
  ld_ix2 (Val := Elt F) x ![0, 0] inb_S16x3_S16x1_0_0 b 0 b 0 (Nat.zero_add _).symm rfl
theorem col1 (x : Vec F S16x3 .f32) (b : Fin 16) :
    View.ld x (Rect.unit ![0, 1] S16x1.size inb_S16x3_S16x1_0_1) (ix2 b 0) = x (ix2 b 1) :=
  ld_ix2 (Val := Elt F) x ![0, 1] inb_S16x3_S16x1_0_1 b 0 b 1 (Nat.zero_add _).symm rfl
theorem col2 (x : Vec F S16x3 .f32) (b : Fin 16) :
    View.ld x (Rect.unit ![0, 2] S16x1.size inb_S16x3_S16x1_0_2) (ix2 b 0) = x (ix2 b 2) :=
  ld_ix2 (Val := Elt F) x ![0, 2] inb_S16x3_S16x1_0_2 b 0 b 2 (Nat.zero_add _).symm rfl

end AnyF

/-- The cleared slab reads zero. -/
theorem pay2_apply (u : Fin 1) (b ch : Fin 16) : k0_pay2 (F := Ideal) (ix3 u b ch) = 0 := by
  unfold k0_pay2
  exact (shapeCast_ab_1ab_apply _ _ u b ch).trans Ideal.ofBits_zero_f32

end AtIndex

variable (m : (ℓ : Loc nD τ sig) → Buf (Elt Ideal) ℓ)

/-- One block's contribution to ray `b`, channel `ch`: over the block's 32768 points, weight × field. The rows of `x0`
    are the points' three coordinates, `x1` the field block, `x2` the ray directions, `x3` the ray origins, and the
    columns of `x4` the rays' scalars o·d, |o|², |d|². -/
def contrib (x0 : Vec Ideal S3x32768 .f32) (x1 : Vec Ideal S32768x16 .f32) (x2 x3 x4 : Vec Ideal S16x3 .f32) (b ch : Fin 16) : EReal :=
  ∑ j : Fin 32768, Tube.weight (x0 (ix2 0 j)) (x0 (ix2 1 j)) (x0 (ix2 2 j)) (x2 (ix2 b 0)) (x2 (ix2 b 1)) (x2 (ix2 b 2))
      (x3 (ix2 b 0)) (x3 (ix2 b 1)) (x3 (ix2 b 2)) (x4 (ix2 b 0)) (x4 (ix2 b 1)) (x4 (ix2 b 2)) * x1 (ix2 j ch)

/-- The sum the body stores over a slab holding `s`, at ray `b` and channel `ch`: `s` there plus the block's
    contribution. The body's weight at a point is the specification's: it forms d·x in two parts and reads each
    coordinate through the row or column it loaded. -/
theorem bodyPay_apply (x0 : Vec Ideal S3x32768 .f32) (x1 : Vec Ideal S32768x16 .f32) (x2 x3 x4 : Vec Ideal S16x3 .f32)
    (s : Vec Ideal S1x16x16 .f32) (b ch : Fin 16) :
    bodyPay x0 x1 x2 x3 x4 s (ix2 b ch) = s (ix3 0 b ch) + contrib x0 x1 x2 x3 x4 b ch := by
  unfold bodyPay
  refine (pay11_apply _ _ _ _ _ _ _ _ _ _ _ x1 s b ch).trans ?_
  refine congrArg (s (ix3 0 b ch) + ·) ?_
  unfold contrib
  refine Finset.sum_congr rfl fun j _ => ?_
  refine congrArg (· * x1 (ix2 j ch)) ?_
  rw [pay3_eq, pay4_eq, pay5_eq, pay6_eq, pay7_eq, pay8_eq, pay9_apply, pay10_apply]
  exact wgt_congr (row0 x0 j) (row1 x0 j) (row2 x0 j) (col0 x3 b) (col1 x3 b) (col2 x3 b) (col0 x4 b) (col1 x4 b) (col2 x4 b)
    (congrArg₂ (· + ·) (congrArg₂ (· * ·) (col0 x2 b) (row0 x0 j)) (congrArg₂ (· * ·) (col1 x2 b) (row1 x0 j)))
    (congrArg₂ (· * ·) (col2 x2 b) (row2 x0 j))

theorem slabStart_apply (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : atStart i) (x0 : Vec Ideal S3x32768 .f32) (x1 : Vec Ideal S32768x16 .f32) (x2 x3 x4 : Vec Ideal S16x3 .f32) (b ch : Fin 16) :
    slabStart (F := Ideal) c i a2 h2 a3 h3 a4 h4 a5 h5 a6 h6 a7 h7 hc x0 x1 x2 x3 x4 (ix3 0 b ch) = 0 + contrib x0 x1 x2 x3 x4 b ch := by
  have e1 := congrFun (slabStart_eq (F := Ideal) c i a2 h2 a3 h3 a4 h4 a5 h5 a6 h6 a7 h7 hc x0 x1 x2 x3 x4) (ix3 0 b ch)
  have e2 := pay1_apply (bodyPay x0 x1 x2 x3 x4 (k0_pay2 (F := Ideal))) 0 b ch
  have e3 := bodyPay_apply x0 x1 x2 x3 x4 (k0_pay2 (F := Ideal)) b ch
  have e4 := pay2_apply 0 b ch
  exact e1.trans (e2.trans (e3.trans (congrArg (· + contrib x0 x1 x2 x3 x4 b ch) e4)))

theorem slabLater_apply (c : Dev nD) (i : grid0.Coords)
    (a2 : Memref sig .tc .vmem S3x32768 .f32) (h2 : a2.IsWhole) (a3 : Memref sig .tc .vmem S32768x16 .f32) (h3 : a3.IsWhole)
    (a4 : Memref sig .tc .vmem S16x3 .f32) (h4 : a4.IsWhole) (a5 : Memref sig .tc .vmem S16x3 .f32) (h5 : a5.IsWhole)
    (a6 : Memref sig .tc .vmem S16x3 .f32) (h6 : a6.IsWhole) (a7 : Memref sig .tc .vmem S1x16x16 .f32) (h7 : a7.IsWhole)
    (hc : ¬atStart i) (x0 : Vec Ideal S3x32768 .f32) (x1 : Vec Ideal S32768x16 .f32) (x2 x3 x4 : Vec Ideal S16x3 .f32)
    (acc : Vec Ideal S1x16x16 .f32) (b ch : Fin 16) :
    slabLater (F := Ideal) c i a2 h2 a3 h3 a4 h4 a5 h5 a6 h6 a7 h7 hc x0 x1 x2 x3 x4 acc (ix3 0 b ch)
      = acc (ix3 0 b ch) + contrib x0 x1 x2 x3 x4 b ch := by
  refine (congrFun (slabLater_eq (F := Ideal) c i a2 h2 a3 h3 a4 h4 a5 h5 a6 h6 a7 h7 hc x0 x1 x2 x3 x4 acc) (ix3 0 b ch)).trans ?_
  refine (pay1_apply _ 0 b ch).trans ?_
  exact bodyPay_apply x0 x1 x2 x3 x4 acc b ch

end Cert.KernelIdeal.Sweep

end
-- ==== Proof.Ideal.Result.lean ====
/-
  From the slabs to the result.

  The result array has two slabs, one per half of the sweep; slab p is written back once, after the half's last block
  (block 32·p + 31), so at the end it holds what that block left in the staging buffer. The two closing host lines
  then add the two slabs onto zero, entry by entry.
-/
import proofs.«134575_j71803263255265_1_alg».proof.Proof.Ideal.Sweep
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Sweep

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The last block of half `p`. -/
theorem lastOf_lt (p : Fin 2) : 32 * p.val + 31 < cfg0.N := by
  have : cfg0.N = 64 := N_0
  have := p.isLt; omega

/-- The result array after the sweep, at its literal type. -/
abbrev slabs (c : Dev nD) : Vec Ideal S2x16x16 .f32 := (dats m 0 c).arrAt 5 cfg0.N

/-- Window 5's block index at a grid point: the half's slab, and all of the other two axes. -/
theorem index5 : ∀ t : Fin cfg0.N, (cfg0.win 5).index t (0 : Fin 3) = t.val / 32
    ∧ (cfg0.win 5).index t (1 : Fin 3) = 0 ∧ (cfg0.win 5).index t (2 : Fin 3) = 0 :=
  (by decide +kernel : ∀ t : Fin grid0.N, win0_5.index t (0 : Fin 3) = t.val / 32
    ∧ win0_5.index t (1 : Fin 3) = 0 ∧ win0_5.index t (2 : Fin 3) = 0)

/-- The two write-backs go to different slabs, so their blocks do not meet. -/
theorem disj5 : ∀ t t' : Fin cfg0.N, (cfg0.win 5).flush t = true → (cfg0.win 5).flush t' = true → t ≠ t' →
    Disjoint ((cfg0.win 5).blk t).view.set ((cfg0.win 5).blk t').view.set := by
  intro t t' hf hf' hne
  refine (cfg0.win 5).disjoint_blk fun h => hne (Fin.ext ?_)
  have h0 := congrFun h (0 : Fin 3)
  rw [(index5 t).1, (index5 t').1] at h0
  have h1 := (flush0_5 t).mp hf
  have h2 := (flush0_5 t').mp hf'
  omega

/-- Where an entry of the block at point `t` sits in the result array: on each axis the block index times the block's
    size plus the entry's own coordinate. -/
theorem emb5 (t : Fin cfg0.N) (y : ((cfg0.win 5).xblock (cfg0.grid.coords t)).Idx) (a : Fin 3) :
    ((((cfg0.win 5).blk t).view.emb y) a : Nat) = (cfg0.win 5).index t a * (cfg0.win 5).size a + (y a : Nat) := by
  show ((((View.whole main_v13).slice ((cfg0.win 5).rect t)).emb y) a : Nat) = _
  rw [View.emb_slice, Function.Embedding.trans_apply, View.emb_whole, Function.Embedding.refl_apply]
  exact (cfg0.win 5).rect_emb_val t y a

/-- An entry under a written-back block ends at what that point's body left there: the two write-backs do not meet,
    and the window moves its whole block. -/
theorem arr5_emb (c : Dev nD) (t : Fin cfg0.N) (hf : (cfg0.win 5).flush t = true)
    (y : ((cfg0.win 5).xblock (cfg0.grid.coords t)).Idx) :
    (dats m 0 c).arrAt 5 cfg0.N (((cfg0.win 5).blk t).view.emb y) = slabAt m c t.val t.isLt y := by
  rw [(dats m 0 c).arrAt_emb_eq_flushed 5 disj5 t hf y]
  exact cast_eq _ _

/-- Slab `p` of the result array is what the last block of half `p` left. -/
theorem slabs_apply (c : Dev nD) (p : Fin 2) (b ch : Fin 16) :
    slabs m c (ix3 p b ch) = slabAt m c (32 * p.val + 31) (lastOf_lt p) (ix3 0 b ch) := by
  have hf : (cfg0.win 5).flush ⟨32 * p.val + 31, lastOf_lt p⟩ = true := (flush0_5 _).mpr (by dsimp only; omega)
  have he : ((cfg0.win 5).blk ⟨32 * p.val + 31, lastOf_lt p⟩).view.emb (ix3 (0 : Fin 1) b ch : S1x16x16.Idx)
      = (ix3 p b ch : S2x16x16.Idx) := by
    funext a
    apply Fin.ext
    rw [emb5]
    obtain ⟨e0, e1, e2⟩ := index5 ⟨32 * p.val + 31, lastOf_lt p⟩
    have hp := p.isLt
    match a with
    | ⟨0, _⟩ =>
      show (cfg0.win 5).index ⟨32 * p.val + 31, lastOf_lt p⟩ (0 : Fin 3) * 1 + 0 = p.val
      have e0' : (cfg0.win 5).index ⟨32 * p.val + 31, lastOf_lt p⟩ (0 : Fin 3) = (32 * p.val + 31) / 32 := e0
      rw [e0']
      omega
    | ⟨1, _⟩ =>
      show (cfg0.win 5).index ⟨32 * p.val + 31, lastOf_lt p⟩ (1 : Fin 3) * 16 + b.val = b.val
      rw [e1]
      omega
    | ⟨2, _⟩ =>
      show (cfg0.win 5).index ⟨32 * p.val + 31, lastOf_lt p⟩ (2 : Fin 3) * 16 + ch.val = ch.val
      rw [e2]
      omega
  exact (congrArg (slabs m c) he.symm).trans (arr5_emb m c ⟨32 * p.val + 31, lastOf_lt p⟩ hf _)

/-- The program's result: the two slabs added onto zero. -/
theorem closing_sum (c : Dev nD) (b ch : Fin 16) :
    (Pipeline.afterTail₀ cfgs (dats m) 0 (V0 m) [hostOps1] c main_v14 : Vec Ideal S16x16 .f32) (ix2 b ch)
      = 0 + ∑ p : Fin 2, slabs m c (ix3 p b ch) := by
  have h : (Pipeline.afterTail₀ cfgs (dats m) 0 (V0 m) [hostOps1] c main_v14 : Vec Ideal S16x16 .f32)
      = Host.reduceAdd (F := Ideal) (slabs m c) (constant (F := Ideal) S_ .f32 0x00000000#32) reducesTo_S2x16x16_S16x16_d0 h_S_ := by
    unfold Pipeline.afterTail₀
    show StableHlo.after hostOps1 _ (Proc.devRef .tc main_v14) = _
    after_results
    exact congrArg (fun x : Vec Ideal S2x16x16 .f32 => Host.reduceAdd (F := Ideal) x (constant (F := Ideal) S_ .f32 0x00000000#32) reducesTo_S2x16x16_S16x16_d0 h_S_)
      (Pipeline.withArrays_arr spec0 launch0.win.arr_inj c _ _ 5)
  rw [h]
  generalize slabs m c = y0
  simp only [Host.reduceAdd, Ideal.hostReduceAdd_def]
  rw [Ideal.hostReduceAdd_single reducesTo_S2x16x16_S16x16_d0 (by decide)]
  refine congrArg₂ (· + ·) ?_ (Finset.sum_congr rfl fun k _ => ?_)
  · rw [constant_apply]
    exact Ideal.ofBits_zero_f32
  · exact congrArg y0 (funext fun a => Fin.ext (by match a with | ⟨0, _⟩ => rfl | ⟨1, _⟩ => rfl | ⟨2, _⟩ => rfl))

end Cert.KernelIdeal.Sweep

end
-- ==== Proof.SumLaw.lean ====
/-
  The law of the blocked sum.  A sum over the 2097152 points may be taken block by block: cut the points into 64
  consecutive blocks of 32768, add each half's 32 block shares one after another onto a running sum that starts
  from zero at the half's first block, and add the two halves' last running sums onto zero.  Since addition of
  extended reals is commutative and associative and zero is neutral, the outcome is the plain sum over all points.
-/
import proofs.«134575_j71803263255265_1_alg».proof.Proof.Spec
import Mathlib.Algebra.BigOperators.Fin
import Mathlib.Algebra.BigOperators.Group.Finset.Basic

noncomputable section

namespace Cert.Tube

open Idealize.ShloMosaic
open scoped BigOperators

/-- a summand read inside the range is the summand -/
theorem ext_of_lt (f : Fin 2097152 → EReal) (n : ℕ) (h : n < 2097152) : ext f n = f ⟨n, h⟩ := by
  unfold ext
  exact dif_pos h

/-- at a first block of a half the running sum restarts -/
theorem running_start (f : Fin 2097152 → EReal) (t : ℕ) (h : t % 32 = 0) : running f t = 0 + blockSum f t := by
  cases t with
  | zero => rfl
  | succ t =>
    show (if (t + 1) % 32 = 0 then 0 + blockSum f (t + 1) else running f t + blockSum f (t + 1)) = _
    exact if_pos h

/-- at a later block it continues -/
theorem running_later (f : Fin 2097152 → EReal) (t : ℕ) (h : ¬t % 32 = 0) :
    running f t = running f (t - 1) + blockSum f t := by
  cases t with
  | zero => exact absurd (Nat.zero_mod 32) h
  | succ t =>
    show (if (t + 1) % 32 = 0 then 0 + blockSum f (t + 1) else running f t + blockSum f (t + 1)) = _
    rw [if_neg h, Nat.add_sub_cancel]

/-- Within a half, the running sum after the half's block `i` is the sum of the half's block shares up to `i`. -/
theorem running_prefix (f : Fin 2097152 → EReal) (p : ℕ) :
    ∀ i : ℕ, i < 32 → running f (32 * p + i) = ∑ i' ∈ Finset.range (i + 1), blockSum f (32 * p + i') := by
  intro i
  induction i with
  | zero =>
    intro _
    rw [running_start f (32 * p + 0) (by omega), Finset.sum_range_one, zero_add]
  | succ i ih =>
    intro hi
    have hne : ¬(32 * p + (i + 1)) % 32 = 0 := by omega
    have hpred : 32 * p + (i + 1) - 1 = 32 * p + i := by omega
    rw [running_later f (32 * p + (i + 1)) hne, hpred, ih (by omega), Finset.sum_range_succ _ (i + 1)]

/-- A sum over the first `m * k` naturals is the sum over `m` consecutive blocks of `k`. -/
theorem sum_range_blocks (g : ℕ → EReal) (k : ℕ) :
    ∀ m : ℕ, ∑ n ∈ Finset.range (m * k), g n = ∑ t ∈ Finset.range m, ∑ j ∈ Finset.range k, g (t * k + j) := by
  intro m
  induction m with
  | zero => rw [Nat.zero_mul, Finset.sum_range_zero, Finset.sum_range_zero]
  | succ m ih => rw [Nat.succ_mul, Finset.sum_range_add, ih, Finset.sum_range_succ]

/-- A block's share as a sum over a range of naturals. -/
theorem blockSum_range (f : Fin 2097152 → EReal) (t : ℕ) :
    blockSum f t = ∑ j ∈ Finset.range 32768, ext f (t * 32768 + j) := by
  unfold blockSum
  exact (Finset.sum_range (fun j => ext f (t * 32768 + j))).symm

/-- The whole sum as a sum of the zero-extended summand over a range of naturals. -/
theorem total_range (f : Fin 2097152 → EReal) :
    ∑ n : Fin 2097152, f n = ∑ n ∈ Finset.range 2097152, ext f n := by
  rw [Finset.sum_range (fun n => ext f n)]
  refine Finset.sum_congr rfl ?_
  intro n _
  exact (ext_of_lt f n.val n.isLt).symm

/-- THE LAW: the two halves' last running sums added onto zero are the whole sum -/
theorem swept (f : Fin 2097152 → EReal) :
    (0 : EReal) + ∑ p : Fin 2, running f (32 * p.val + 31) = ∑ n : Fin 2097152, f n := by
  have hN : (2097152 : ℕ) = 64 * 32768 := by norm_num
  have h64 : (64 : ℕ) = 32 + 32 := by norm_num
  rw [total_range f, hN, sum_range_blocks (ext f) 32768 64, h64, Finset.sum_range_add, zero_add, Fin.sum_univ_two]
  have h0 : running f (32 * 0 + 31) = ∑ i' ∈ Finset.range 32, blockSum f (32 * 0 + i') :=
    running_prefix f 0 31 (by norm_num)
  have h1 : running f (32 * 1 + 31) = ∑ i' ∈ Finset.range 32, blockSum f (32 * 1 + i') :=
    running_prefix f 1 31 (by norm_num)
  have e0 : ∑ i' ∈ Finset.range 32, blockSum f (32 * 0 + i')
      = ∑ x ∈ Finset.range 32, ∑ j ∈ Finset.range 32768, ext f (x * 32768 + j) := by
    refine Finset.sum_congr rfl ?_
    intro i _
    rw [blockSum_range, Nat.mul_zero, Nat.zero_add]
  have e1 : ∑ i' ∈ Finset.range 32, blockSum f (32 * 1 + i')
      = ∑ x ∈ Finset.range 32, ∑ j ∈ Finset.range 32768, ext f ((32 + x) * 32768 + j) := by
    refine Finset.sum_congr rfl ?_
    intro i _
    rw [blockSum_range, Nat.mul_one]
  rw [show ((0 : Fin 2).val) = 0 from rfl, show ((1 : Fin 2).val) = 1 from rfl, h0, h1, e0, e1]

end Cert.Tube

end
-- ==== Proof.Ideal.Value.lean ====
/-
  The kernel's result is the specification's.

  For a ray b and a channel ch the sweep's summand at lattice point n is the point's weight for the ray times the
  field at the point. One block's contribution, computed from the block's five inputs, is that summand added over the
  block's 32768 points; so by induction on the block number the result slab after block t holds the running sum of the
  specification — restarted at the first block of each half, continued at the others. The result array's two slabs
  are then the two halves' totals, the closing lines add them onto zero, and that is the sum over all 2097152 points.
-/
import proofs.«134575_j71803263255265_1_alg».proof.Proof.Ideal.BlockReads
import proofs.«134575_j71803263255265_1_alg».proof.Proof.Ideal.BodyMath
import proofs.«134575_j71803263255265_1_alg».proof.Proof.Ideal.Result
import proofs.«134575_j71803263255265_1_alg».proof.Proof.SumLaw
import proofs.«134575_j71803263255265_1_alg».proof.Proof.Readers

set_option maxRecDepth 16384

noncomputable section

namespace Cert.KernelIdeal.Sweep

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The summand for ray `b` and channel `ch`: weight of the point for the ray × the field at the point. -/
def summand (c : Dev nD) (b ch : Fin 16) : Fin 2097152 → EReal := fun n =>
  Tube.w (Tube.pts (latticeArg m c)) (Tube.tab (dirArg m c)) (Tube.tab (originArg m c))
      (Tube.dot3 (originArg m c) (dirArg m c)) (Tube.dot3 (originArg m c) (originArg m c)) (Tube.dot3 (dirArg m c) (dirArg m c)) b n
    * Tube.fld (fieldArg m c) n ch

/-- The specification's result is the summand added over the whole lattice. -/
theorem result_eq_sum (c : Dev nD) (b ch : Fin 16) :
    Tube.result (fieldArg m c) (latticeArg m c) (originArg m c) (dirArg m c) b ch = ∑ n : Fin 2097152, summand m c b ch n := rfl

/-- Block `t`'s contribution, computed from its five input blocks, is the block's share of that sum. -/
theorem contrib_eq (c : Dev nD) (t : Fin cfg0.N) (b ch : Fin 16) :
    contrib (latBlk m c t) (fldBlk m c t) (dirBlk m c t) (orgBlk m c t) (sclBlk m c t) b ch = Tube.blockSum (summand m c b ch) t.val := by
  unfold contrib Tube.blockSum
  refine Finset.sum_congr rfl fun j _ => ?_
  rw [show Tube.ext (summand m c b ch) (t.val * 32768 + j.val) = summand m c b ch (pt t j) from
      Tube.ext_of_lt _ _ (pt t j).isLt, latBlk_apply, latBlk_apply, latBlk_apply, fldBlk_apply,
    dirBlk_apply, dirBlk_apply, dirBlk_apply, orgBlk_apply, orgBlk_apply, orgBlk_apply,
    sclBlk_apply_0, sclBlk_apply_1, sclBlk_apply_2]
  rfl

/-- THE INDUCTION: after block `n` the slab holds the specification's running sum. -/
theorem slabAt_eq (c : Dev nD) (b ch : Fin 16) :
    ∀ (n : ℕ) (hn : n < cfg0.N), slabAt m c n hn (ix3 0 b ch) = Tube.running (summand m c b ch) n := by
  intro n
  induction n with
  | zero =>
    intro hn
    have h0 : (⟨0, hn⟩ : Fin cfg0.N).val % 32 = 0 := Nat.zero_mod _
    rw [show slabAt m c 0 hn = slabAt m c (⟨0, hn⟩ : Fin cfg0.N).val (⟨0, hn⟩ : Fin cfg0.N).isLt from rfl,
      slabAt_start m c ⟨0, hn⟩ h0, slabStart_apply, Tube.running_start _ _ (Nat.zero_mod _)]
    exact congrArg (0 + ·) (contrib_eq m c ⟨0, hn⟩ b ch)
  | succ n ih =>
    intro hn
    by_cases h0 : (n + 1) % 32 = 0
    · rw [show slabAt m c (n + 1) hn = slabAt m c (⟨n + 1, hn⟩ : Fin cfg0.N).val (⟨n + 1, hn⟩ : Fin cfg0.N).isLt from rfl,
        slabAt_start m c ⟨n + 1, hn⟩ h0, slabStart_apply, Tube.running_start _ _ h0]
      exact congrArg (0 + ·) (contrib_eq m c ⟨n + 1, hn⟩ b ch)
    · rw [show slabAt m c (n + 1) hn = slabAt m c (⟨n + 1, hn⟩ : Fin cfg0.N).val (⟨n + 1, hn⟩ : Fin cfg0.N).isLt from rfl,
        slabAt_later m c ⟨n + 1, hn⟩ h0, slabLater_apply, Tube.running_later _ _ h0]
      refine congrArg₂ (· + ·) ?_ (contrib_eq m c ⟨n + 1, hn⟩ b ch)
      exact ih (Nat.lt_of_succ_lt hn)

/-- The program's result array, entry by entry, is the specification's. -/
theorem result_apply (c : Dev nD) (b ch : Fin 16) :
    (Pipeline.afterTail₀ cfgs (dats m) 0 (V0 m) [hostOps1] c main_v14 : Vec Ideal S16x16 .f32) (ix2 b ch)
      = Tube.result (fieldArg m c) (latticeArg m c) (originArg m c) (dirArg m c) b ch := by
  rw [closing_sum, result_eq_sum, ← Tube.swept (summand m c b ch)]
  refine congrArg (0 + ·) (Finset.sum_congr rfl fun p _ => ?_)
  rw [slabs_apply]
  exact slabAt_eq m c b ch _ _

/-- THE VALUE RUN: every weakly fair execution of the idealized kernel's program terminates, faults nowhere, ends with
    the result at the specification's array of the four arguments, and leaves the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v14) = Tube.resultArr (fieldArg m c) (latticeArg m c) (originArg m c) (dirArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, args_kept m (dats m) (A_eq m) r h c⟩) (run_main m ρ)
  refine ((h c).2 main_v14 (by decide)).trans ?_
  funext i
  rw [eq_ix2 i]
  exact result_apply m c (i 0) (i 1)

end Cert.KernelIdeal.Sweep

end
-- ==== Proof.RefSum.lean ====
/-
  The reference's result, read index by index: for ray b and channel ch it is the weighted sum of the field over the
  whole lattice.

  The reference builds the weight of a point for a ray in stages, each a whole 16×2097152 array: the scalar products
  x·d and x·o as contractions over the three coordinates, |x|² as a sum onto zero, the three ray scalars as sums onto
  zero, and then the arithmetic of the weight entry by entry. Read at one entry (ray b, point n) every stage is the
  specification's expression of the same name; the only differences are of spelling: a product written the other way
  round, a sum begun at zero, a negation where the specification subtracts from zero, and a division by the float
  word ½ (by 2) where the specification multiplies by the float word 2 (by ½). Each is an identity of the extended
  reals, so nothing is asked of the inputs.
-/
import proofs.«134575_j71803263255265_1_alg».proof.Proof.Gen.ReferenceIdeal.Run
import proofs.«134575_j71803263255265_1_alg».proof.Proof.Gen.ReferenceIdeal.Read
import proofs.«134575_j71803263255265_1_alg».proof.Proof.Readers
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.WholeSum

open Cert.ReferenceIdeal Idealize.ShloMosaic Idealize.ShloMosaic.ValueIdx

/-! ## The two float words -/

/-- The float word of 2.0 is the real 2. -/
theorem two_eq : Ideal.ofBits .f32 0x40000000#32 = ((2 : ℝ) : EReal) := by
  simp [Ideal.ofBits, Ideal.ieee, -EReal.coe_mul]; norm_num

/-- The float word of 0.5 is the real ½. -/
theorem half_eq : Ideal.ofBits .f32 0x3F000000#32 = ((1 / 2 : ℝ) : EReal) := by
  simp [Ideal.ofBits, Ideal.ieee, -EReal.coe_mul]; norm_num

/-- Dividing by ½ is multiplying by 2, on every extended real. -/
theorem div_half (x : EReal) : Ideal.div x (Ideal.ofBits .f32 0x3F000000#32) = x * Ideal.ofBits .f32 0x40000000#32 := by
  rw [half_eq, two_eq, Ideal.div_coe (by norm_num)]
  norm_num

/-- Dividing by 2 is multiplying by ½, on every extended real. -/
theorem div_two (x : EReal) : Ideal.div x (Ideal.ofBits .f32 0x40000000#32) = x * Ideal.ofBits .f32 0x3F000000#32 := by
  rw [half_eq, two_eq, Ideal.div_coe (by norm_num)]

/-! ## The composed index maps, at an entry given by its coordinates -/

section Indices

variable (b ch : Fin 16) (n : Fin 2097152) (k : Fin 3)

theorem lidx42 : Read.lidx_main_v42 (ix2 b ch) n = ix2 b n := by
  funext a; match a with | ⟨0, _⟩ => rfl | ⟨1, _⟩ => rfl
theorem ridx42 : Read.ridx_main_v42 (ix2 b ch) n = ix2 n ch := by
  funext a; match a with | ⟨0, _⟩ => rfl | ⟨1, _⟩ => rfl
theorem idx14 : Read.idx_main_v14 (ix2 b n) = ix2 n b := by
  funext a; match a with | ⟨0, _⟩ => rfl | ⟨1, _⟩ => rfl
theorem idx19 : Read.idx_main_v19 (ix2 b n) = ix2 n b := by
  funext a; match a with | ⟨0, _⟩ => rfl | ⟨1, _⟩ => rfl
theorem lidx5 : Read.lidx_main_v5 (ix2 n b) k = ix2 n k := by
  funext a; match a with | ⟨0, _⟩ => rfl | ⟨1, _⟩ => rfl
theorem ridx5 : Read.ridx_main_v5 (ix2 n b) k = ix2 k b := by
  funext a; match a with | ⟨0, _⟩ => rfl | ⟨1, _⟩ => rfl
theorem lidx7 : Read.lidx_main_v7 (ix2 n b) k = ix2 n k := by
  funext a; match a with | ⟨0, _⟩ => rfl | ⟨1, _⟩ => rfl
theorem ridx7 : Read.ridx_main_v7 (ix2 n b) k = ix2 k b := by
  funext a; match a with | ⟨0, _⟩ => rfl | ⟨1, _⟩ => rfl
theorem idx4 : Read.idx_main_v4 (ix2 k b) = ix2 b k := by
  funext a; match a with | ⟨0, _⟩ => rfl | ⟨1, _⟩ => rfl
theorem idx6 : Read.idx_main_v6 (ix2 k b) = ix2 b k := by
  funext a; match a with | ⟨0, _⟩ => rfl | ⟨1, _⟩ => rfl
theorem idx16 : Read.idx_main_v16 (ix2 b n) = ix2 b (0 : Fin 1) := by
  funext a; match a with | ⟨0, _⟩ => rfl | ⟨1, _⟩ => rfl
theorem idx25 : Read.idx_main_v25 (ix2 b n) = ix2 b (0 : Fin 1) := by
  funext a; match a with | ⟨0, _⟩ => rfl | ⟨1, _⟩ => rfl
theorem idx31 : Read.idx_main_v31 (ix2 b n) = ix2 b (0 : Fin 1) := by
  funext a; match a with | ⟨0, _⟩ => rfl | ⟨1, _⟩ => rfl
theorem idx15 : Read.idx_main_v15 (ix2 b (0 : Fin 1)) = ix1 b := by
  funext a; match a with | ⟨0, _⟩ => rfl
theorem idx24 : Read.idx_main_v24 (ix2 b (0 : Fin 1)) = ix1 b := by
  funext a; match a with | ⟨0, _⟩ => rfl
theorem idx28 : Read.idx_main_v28 (ix2 b (0 : Fin 1)) = ix1 b := by
  funext a; match a with | ⟨0, _⟩ => rfl
theorem idx22 : Read.idx_main_v22 (ix2 b n) = ix2 (0 : Fin 1) n := by
  funext a; match a with | ⟨0, _⟩ => rfl | ⟨1, _⟩ => rfl
theorem idx18 : Read.idx_main_v18 (ix2 (0 : Fin 1) n) = ix1 n := by
  funext a; match a with | ⟨0, _⟩ => rfl
theorem idx3 : Read.idx_main_v3 (ix1 n) k = ix2 n k := by
  funext a; match a with | ⟨0, _⟩ => rfl | ⟨1, _⟩ => rfl

end Indices

/-! ## The stages, at one entry -/

section Stages

variable (x0 : FVec Ideal Tube.SFld .f32) (x1 : FVec Ideal Tube.SLat .f32) (x2 x3 : FVec Ideal Tube.STab .f32)
variable (b ch : Fin 16) (n : Fin 2097152) (k : Fin 3)

/-- The flattened lattice is the specification's reader of it. -/
theorem v1_read : Read.val_main_v1 (F := Ideal) x1 (ix2 n k) = Tube.pts x1 n k := rfl

/-- The flattened field is the specification's reader of it. -/
theorem v0_read : Read.val_main_v0 (F := Ideal) x0 (ix2 n ch) = Tube.fld x0 n ch := rfl

/-- o·d, as both sides form it. -/
theorem v9_read : Read.val_main_v9 (F := Ideal) x2 x3 (ix1 b) = Tube.dot3 x2 x3 b := rfl
/-- |o|², as both sides form it. -/
theorem v11_read : Read.val_main_v11 (F := Ideal) x2 (ix1 b) = Tube.dot3 x2 x2 b := rfl
/-- |d|², as both sides form it. -/
theorem v13_read : Read.val_main_v13 (F := Ideal) x3 (ix1 b) = Tube.dot3 x3 x3 b := rfl

/-- x·d: the contraction over the three coordinates, each product turned round. -/
theorem v5_read : Read.val_main_v5 (F := Ideal) x1 x3 (ix2 n b)
    = Tube.tab x3 b 0 * Tube.pts x1 n 0 + Tube.tab x3 b 1 * Tube.pts x1 n 1 + Tube.tab x3 b 2 * Tube.pts x1 n 2 := by
  rw [Read.val_main_v5_apply, Fin.sum_univ_three]
  simp only [Read.val_main_v4_apply, lidx5, ridx5, idx4, v1_read]
  rw [mul_comm (Tube.pts x1 n 0), mul_comm (Tube.pts x1 n 1), mul_comm (Tube.pts x1 n 2)]
  rfl

/-- x·o: the same contraction against the origins. -/
theorem v7_read : Read.val_main_v7 (F := Ideal) x1 x2 (ix2 n b)
    = Tube.tab x2 b 0 * Tube.pts x1 n 0 + Tube.tab x2 b 1 * Tube.pts x1 n 1 + Tube.tab x2 b 2 * Tube.pts x1 n 2 := by
  rw [Read.val_main_v7_apply, Fin.sum_univ_three]
  simp only [Read.val_main_v6_apply, lidx7, ridx7, idx6, v1_read]
  rw [mul_comm (Tube.pts x1 n 0), mul_comm (Tube.pts x1 n 1), mul_comm (Tube.pts x1 n 2)]
  rfl

/-- |x|²: the sum of the three squares, begun at zero. -/
theorem v3_read : Read.val_main_v3 (F := Ideal) x1 (ix1 n)
    = Tube.pts x1 n 0 * Tube.pts x1 n 0 + Tube.pts x1 n 1 * Tube.pts x1 n 1 + Tube.pts x1 n 2 * Tube.pts x1 n 2 := by
  rw [Read.val_main_v3_apply, Fin.sum_univ_three, Read.val_main_cst_apply]
  simp only [Read.val_main_v2_apply, idx3, v1_read, Ideal.ofBits_def, Ideal.ofBits_zero_f32, Ideal.mulf_def, zero_add]

/-- The position along the ray. -/
theorem v17_read : Read.val_main_v17 (F := Ideal) x1 x2 x3 (ix2 b n)
    = Tube.along (Tube.pts x1 n 0) (Tube.pts x1 n 1) (Tube.pts x1 n 2) (Tube.tab x3 b 0) (Tube.tab x3 b 1) (Tube.tab x3 b 2)
        (Tube.dot3 x2 x3 b) := by
  rw [Read.val_main_v17_apply, Read.val_main_v14_apply, Read.val_main_v16_apply, Read.val_main_v15_apply,
    idx14, idx16, idx15, v5_read, v9_read]
  rfl

/-- The squared distance from the ray's origin. -/
theorem v26_read : Read.val_main_v26 (F := Ideal) x1 x2 (ix2 b n)
    = Tube.dist2 (Tube.pts x1 n 0) (Tube.pts x1 n 1) (Tube.pts x1 n 2) (Tube.tab x2 b 0) (Tube.tab x2 b 1) (Tube.tab x2 b 2)
        (Tube.dot3 x2 x2 b) := by
  rw [Read.val_main_v26_apply, Read.val_main_v23_apply, Read.val_main_v22_apply, Read.val_main_v18_apply,
    Read.val_main_v21_apply, Read.val_main_v20_apply, Read.val_main_cst_3_apply, Read.val_main_v19_apply,
    Read.val_main_v25_apply, Read.val_main_v24_apply,
    idx22, idx18, idx19, idx25, idx24, v3_read, v7_read, v11_read]
  rfl

/-- 2 − |d|². -/
theorem v31_read : Read.val_main_v31 (F := Ideal) x3 (ix2 b n) = Tube.two - Tube.dot3 x3 x3 b := by
  rw [Read.val_main_v31_apply, Read.val_main_v30_apply, Read.val_main_v29_apply, Read.val_main_cst_4_apply,
    Read.val_main_v28_apply, idx31, idx28, v13_read]
  rfl

/-- The divisor ½, spread over the array. -/
theorem v35_read : Read.val_main_v35 (F := Ideal) (ix2 b n) = Ideal.ofBits .f32 0x3F000000#32 := by
  rw [Read.val_main_v35_apply, Read.val_main_cst_5_apply]
  rfl

/-- The divisor 2, spread over the array. -/
theorem v38_read : Read.val_main_v38 (F := Ideal) (ix2 b n) = Ideal.ofBits .f32 0x40000000#32 := by
  rw [Read.val_main_v38_apply, Read.val_main_cst_6_apply]
  rfl

/-- The weight of point `n` for ray `b`. -/
theorem v41_read : Read.val_main_v41 (F := Ideal) x1 x2 x3 (ix2 b n)
    = Tube.w (Tube.pts x1) (Tube.tab x3) (Tube.tab x2) (Tube.dot3 x2 x3) (Tube.dot3 x2 x2) (Tube.dot3 x3 x3) b n := by
  rw [Read.val_main_v41_apply, Read.val_main_v40_apply, Read.val_main_v36_apply, Read.val_main_v39_apply,
    Read.val_main_v34_apply, Read.val_main_v37_apply, Read.val_main_v33_apply, Read.val_main_v32_apply,
    Read.val_main_v27_apply, v35_read, v38_read, v31_read, v26_read, v17_read]
  simp only [Ideal.hostUnary_exp_def, Ideal.subf_def, Ideal.mulf_def, Ideal.hostDivf_def, Ideal.hostNegf_def,
    Ideal.negf_def, Ideal.hostAbsf_def, Ideal.absf_def, div_half, div_two]
  rw [← zero_sub]
  rfl

end Stages

/-- The reference's result for ray `b` and channel `ch` is the specification's. (`x0` the field, `x1` the lattice,
    `x2` the ray origins, `x3` the ray directions.) -/
theorem ref_apply (x0 : FVec Ideal Tube.SFld .f32) (x1 : FVec Ideal Tube.SLat .f32) (x2 x3 : FVec Ideal Tube.STab .f32) (b ch : Fin 16) :
    Read.val_main_v42 (F := Ideal) x0 x1 x2 x3 (ix2 b ch) = Tube.result x0 x1 x2 x3 b ch := by
  rw [Read.val_main_v42_apply]
  unfold Tube.result Tube.G
  refine Finset.sum_congr rfl fun n _ => ?_
  rw [lidx42, ridx42, v41_read, v0_read]

/-- The same as one array. -/
theorem ref_eq (x0 : FVec Ideal Tube.SFld .f32) (x1 : FVec Ideal Tube.SLat .f32) (x2 x3 : FVec Ideal Tube.STab .f32) :
    Read.val_main_v42 (F := Ideal) x0 x1 x2 x3 = Tube.resultArr x0 x1 x2 x3 := by
  funext i
  rw [eq_ix2 i]
  exact ref_apply x0 x1 x2 x3 (i 0) (i 1)

end Cert.ReferenceIdeal.WholeSum

end
-- ==== Proof.lean ====
/-
  A Gaussian-tube read of a lattice field along sixteen rays: the blocked kernel against the one-shot reference.

  For ray b (origin o, direction d) and lattice point x, with t = d·x − o·d and ρ² = |x|² − 2 o·x + |o|² − t²(2 − |d|²), the
  weight is exp(−2ρ² − |t|/2); the result for ray b and channel ch is the sum over all 128³ lattice points of weight ×
  field. The reference forms that sum at once. The kernel sweeps the points in 64 blocks of 32768, two halves of 32
  blocks each into a slab of its own that restarts from zero, and adds the two slabs at the end.

  Over the extended reals the two agree entry by entry: the weights differ only in how a negation, a division by ½ and
  a division by 2 are spelt (0 − x, ·2, ·½ in the kernel), which are equal on every extended real, and in the order of
  the factors of a product; and the blocked sum is the whole sum because addition of extended reals is commutative and
  associative. No finiteness of the inputs is used. The frames: the two kernel programs run block by block (the slab's
  running contents are the proof data); the reference is a straight line of host operations.
-/
import proofs.«134575_j71803263255265_1_alg».proof.Defs
import proofs.«134575_j71803263255265_1_alg».proof.Proof.Gen.Kernel
import proofs.«134575_j71803263255265_1_alg».proof.Proof.Gen.KernelIdeal
import proofs.«134575_j71803263255265_1_alg».proof.Proof.Gen.ReferenceIdeal
import proofs.«134575_j71803263255265_1_alg».proof.Proof.Gen.Pre_finite_inputs
import proofs.«134575_j71803263255265_1_alg».proof.Proof.Gen.ReferenceIdeal.Run
import proofs.«134575_j71803263255265_1_alg».proof.Proof.Gen.ReferenceIdeal.Read
import proofs.«134575_j71803263255265_1_alg».proof.Proof.Bits.Sweep
import proofs.«134575_j71803263255265_1_alg».proof.Proof.Ideal.Value
import proofs.«134575_j71803263255265_1_alg».proof.Proof.RefSum
import Idealize.ShloMosaic.Adequacy
import Idealize.ShloMosaic.Init

noncomputable section

namespace Cert.Proof

open Idealize.ShloMosaic Idealize.SL.Sem

/-- The word-level kernel's program runs and leaves its arguments unchanged. -/
theorem frame_kernel : Cert.frame_Kernel := fun m ρ _ => Cert.Kernel.Sweep.frame m ρ

/-- So does the idealized kernel's. -/
theorem frame_kernelIdeal : Cert.frame_KernelIdeal := fun m ρ _ => Cert.KernelIdeal.Sweep.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the specification's array of those arguments. -/
theorem algebraic : Cert.algebraic_KernelIdeal_ReferenceIdeal := by
  intro m ρ m' ρ' _ hagree
  refine ⟨fun c => Cert.Tube.resultArr (Cert.KernelIdeal.Sweep.fieldArg m c) (Cert.KernelIdeal.Sweep.latticeArg m c)
      (Cert.KernelIdeal.Sweep.originArg m c) (Cert.KernelIdeal.Sweep.dirArg m c), Cert.KernelIdeal.Sweep.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v42_eq, Cert.ReferenceIdeal.WholeSum.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
